-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S100000x2 : Shape := ⟨2, ![100000, 2]⟩
abbrev S2x1600000 : Shape := ⟨2, ![2, 1600000]⟩
abbrev S18x64 : Shape := ⟨2, ![18, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S9x64 : Shape := ⟨2, ![9, 64]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S18x64 : S_.BroadcastsInDim S18x64 (![] : Fin 0 → Fin S18x64.rank)
  reducesTo_S18x64_S_d0_1 : S18x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S9x64 : S_.BroadcastsInDim S9x64 (![] : Fin 0 → Fin S9x64.rank)
  reducesTo_S9x64_S_d0_1 : S9x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part4 {F : FTy → Type} [FloatOps F] (main_arg2 : IVec S2x1600000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x1600000 32 := broadcastInDim S2x1600000 ![] bcast_S_S2x1600000 main_c_26
  let main_v70 : IVec S2x1600000 1 := cmpi .sge main_arg2 main_v69
  let main_c_27 : IVec S_ 32 := constantI S_ 32 100000#32
  let main_v71 : IVec S2x1600000 32 := broadcastInDim S2x1600000 ![] bcast_S_S2x1600000 main_c_27
  let main_v72 : IVec S2x1600000 1 := cmpi .slt main_arg2 main_v71
  let main_v73 : IVec S2x1600000 1 := andi main_v70 main_v72
  let main_c_28 : IVec S_ 1 := constantI S_ 1 1#1
  let main_v74 : IVec S_ 1 := (fun x v => Host.reduce IntOp.andi x v reducesTo_S2x1600000_S_d0_1 h_S_) main_v73 main_c_28
  let main_v75 : IVec S_ 1 := andi main_v68 main_v74
  main_v75

def fn_part3 {F : FTy → Type} [FloatOps F] (main_arg2 : IVec S2x1600000 32) (main_arg12 : FVec F S64 .f32) (main_arg13 : FVec F S64x1 .f32) (main_arg14 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg13
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg14
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_v63 main_v67

def fn_part2 {F : FTy → Type} [FloatOps F] (main_arg2 : IVec S2x1600000 32) (main_arg8 : FVec F S1 .f32) (main_arg9 : FVec F S9x64 .f32) (main_arg10 : FVec F S64 .f32) (main_arg11 : FVec F S64x64 .f32) (main_arg12 : FVec F S64 .f32) (main_arg13 : FVec F S64x1 .f32) (main_arg14 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S9x64 .f32 := Host.absf main_arg9
  let main_cst_14 : FVec F S_ .f32 := constant S_ .f32 0x7F800000#32
  let main_v40 : FVec F S9x64 .f32 := broadcastInDim S9x64 ![] bcast_S_S9x64 main_cst_14
  let main_v41 : IVec S9x64 1 := cmpf .olt main_v39 main_v40
  let main_c_15 : IVec S_ 1 := constantI S_ 1 1#1
  let main_v42 : IVec S_ 1 := (fun x v => Host.reduce IntOp.andi x v reducesTo_S9x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg2 main_arg12 main_arg13 main_arg14 main_v48 main_v49 main_v50

def fn_part1 {F : FTy → Type} [FloatOps F] (main_arg2 : IVec S2x1600000 32) (main_arg5 : FVec F S64x64 .f32) (main_arg6 : FVec F S64 .f32) (main_arg7 : FVec F S64x1 .f32) (main_arg8 : FVec F S1 .f32) (main_arg9 : FVec F S9x64 .f32) (main_arg10 : FVec F S64 .f32) (main_arg11 : FVec F S64x64 .f32) (main_arg12 : FVec F S64 .f32) (main_arg13 : FVec F S64x1 .f32) (main_arg14 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg2 main_arg8 main_arg9 main_arg10 main_arg11 main_arg12 main_arg13 main_arg14 main_v33

def fn {F : FTy → Type} [FloatOps F] (main_arg0 : FVec F S100000x8 .f32) (main_arg1 : FVec F S100000x2 .f32) (main_arg2 : IVec S2x1600000 32) (main_arg3 : FVec F S18x64 .f32) (main_arg4 : FVec F S64 .f32) (main_arg5 : FVec F S64x64 .f32) (main_arg6 : FVec F S64 .f32) (main_arg7 : FVec F S64x1 .f32) (main_arg8 : FVec F S1 .f32) (main_arg9 : FVec F S9x64 .f32) (main_arg10 : FVec F S64 .f32) (main_arg11 : FVec F S64x64 .f32) (main_arg12 : FVec F S64 .f32) (main_arg13 : FVec F S64x1 .f32) (main_arg14 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S18x64 .f32 := Host.absf main_arg3
  let main_cst_2 : FVec F S_ .f32 := constant S_ .f32 0x7F800000#32
  let main_v10 : FVec F S18x64 .f32 := broadcastInDim S18x64 ![] bcast_S_S18x64 main_cst_2
  let main_v11 : IVec S18x64 1 := cmpf .olt main_v9 main_v10
  let main_c_3 : IVec S_ 1 := constantI S_ 1 1#1
  let main_v12 : IVec S_ 1 := (fun x v => Host.reduce IntOp.andi x v reducesTo_S18x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_arg7 main_arg8 main_arg9 main_arg10 main_arg11 main_arg12 main_arg13 main_arg14 main_v13 main_v16
-- ==== Kernel.lean ====
abbrev S100000x8 : Shape := ⟨2, ![100000, 8]⟩
abbrev S100000x2 : Shape := ⟨2, ![100000, 2]⟩
abbrev S2x1600000 : Shape := ⟨2, ![2, 1600000]⟩
abbrev S18x64 : Shape := ⟨2, ![18, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S9x64 : Shape := ⟨2, ![9, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x8 : Shape := ⟨2, ![1600000, 8]⟩
abbrev S1600000x2 : Shape := ⟨2, ![1600000, 2]⟩
abbrev S1600000x18 : Shape := ⟨2, ![1600000, 18]⟩
abbrev S1x64 : Shape := ⟨2, ![1, 64]⟩
abbrev S16000x18 : Shape := ⟨2, ![16000, 18]⟩
abbrev S16000x1 : Shape := ⟨2, ![16000, 1]⟩
abbrev S16000x64 : Shape := ⟨2, ![16000, 64]⟩
abbrev S100000x1 : Shape := ⟨2, ![100000, 1]⟩
abbrev S100000x9 : Shape := ⟨2, ![100000, 9]⟩
abbrev S5000x9 : Shape := ⟨2, ![5000, 9]⟩
abbrev S5000x1 : Shape := ⟨2, ![5000, 1]⟩
abbrev S5000x64 : Shape := ⟨2, ![5000, 64]⟩

abbrev nBuf : Space → Nat
  | .hbm => 138
  | .vmem => 20
  | .smem => 0
  | _ => 0

abbrev hbmTy0_0 (i : Nat) : BufTy := match i % 128 with
  | 0 => ⟨S100000x8, .f32⟩
  | 1 => ⟨S100000x2, .f32⟩
  | 2 => ⟨S2x1600000, .i32⟩
  | 3 => ⟨S18x64, .f32⟩
  | 4 => ⟨S64, .f32⟩
  | 5 => ⟨S64x64, .f32⟩
  | 6 => ⟨S64, .f32⟩
  | 7 => ⟨S64x1, .f32⟩
  | 8 => ⟨S1, .f32⟩
  | 9 => ⟨S9x64, .f32⟩
  | 10 => ⟨S64, .f32⟩
  | 11 => ⟨S64x64, .f32⟩
  | 12 => ⟨S64, .f32⟩
  | 13 => ⟨S64x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1, .i32⟩
  | 28 => ⟨S_, .i32⟩
  | 29 => ⟨S1600000x1, .i32⟩
  | 30 => ⟨S1600000x1, .i1⟩
  | 31 => ⟨S1x1, .i32⟩
  | 32 => ⟨S1600000x1, .i32⟩
  | 33 => ⟨S1600000x1, .i1⟩
  | 34 => ⟨S1600000x1, .i1⟩
  | 35 => ⟨S_, .i1⟩
  | 36 => ⟨S1600000, .i1⟩
  | 37 => ⟨S1600000x8, .f32⟩
  | 38 => ⟨S1600000x8, .i1⟩
  | 39 => ⟨S_, .f32⟩
  | 40 => ⟨S1600000x8, .f32⟩
  | 41 => ⟨S1600000x8, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1, .i32⟩
  | 51 => ⟨S_, .i32⟩
  | 52 => ⟨S1600000x1, .i32⟩
  | 53 => ⟨S1600000x1, .i1⟩
  | 54 => ⟨S1x1, .i32⟩
  | 55 => ⟨S1600000x1, .i32⟩
  | 56 => ⟨S1600000x1, .i1⟩
  | 57 => ⟨S1600000x1, .i1⟩
  | 58 => ⟨S_, .i1⟩
  | 59 => ⟨S1600000, .i1⟩
  | 60 => ⟨S1600000x8, .f32⟩
  | 61 => ⟨S1600000x8, .i1⟩
  | 62 => ⟨S_, .f32⟩
  | 63 => ⟨S1600000x8, .f32⟩
  | 64 => ⟨S1600000x8, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1, .i32⟩
  | 74 => ⟨S_, .i32⟩
  | 75 => ⟨S1600000x1, .i32⟩
  | 76 => ⟨S1600000x1, .i1⟩
  | 77 => ⟨S1x1, .i32⟩
  | 78 => ⟨S1600000x1, .i32⟩
  | 79 => ⟨S1600000x1, .i1⟩
  | 80 => ⟨S1600000x1, .i1⟩
  | 81 => ⟨S_, .i1⟩
  | 82 => ⟨S1600000, .i1⟩
  | 83 => ⟨S1600000x2, .f32⟩
  | 84 => ⟨S1600000x2, .i1⟩
  | 85 => ⟨S_, .f32⟩
  | 86 => ⟨S1600000x2, .f32⟩
  | 87 => ⟨S1600000x2, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1, .i32⟩
  | 97 => ⟨S_, .i32⟩
  | 98 => ⟨S1600000x1, .i32⟩
  | 99 => ⟨S1600000x1, .i1⟩
  | 100 => ⟨S1x1, .i32⟩
  | 101 => ⟨S1600000x1, .i32⟩
  | 102 => ⟨S1600000x1, .i1⟩
  | 103 => ⟨S1600000x1, .i1⟩
  | 104 => ⟨S_, .i1⟩
  | 105 => ⟨S1600000, .i1⟩
  | 106 => ⟨S1600000x2, .f32⟩
  | 107 => ⟨S1600000x2, .i1⟩
  | 108 => ⟨S_, .f32⟩
  | 109 => ⟨S1600000x2, .f32⟩
  | 110 => ⟨S1600000x2, .f32⟩
  | 111 => ⟨S1600000x2, .f32⟩
  | 112 => ⟨S1600000x18, .f32⟩
  | 113 => ⟨S1x64, .f32⟩
  | 114 => ⟨S1x64, .f32⟩
  | 115 => ⟨S1x1, .f32⟩
  | 116 => ⟨S1600000x1, .f32⟩
  | 117 => ⟨S_, .f32⟩
  | 118 => ⟨S100000x1, .f32⟩
  | 119 => ⟨S1600000x1, .i32⟩
  | 120 => ⟨S100000x1, .f32⟩
  | 121 => ⟨S_, .f32⟩
  | 122 => ⟨S1600000x1, .f32⟩
  | 123 => ⟨S_, .f32⟩
  | 124 => ⟨S100000x1, .f32⟩
  | 125 => ⟨S1600000x1, .i32⟩
  | 126 => ⟨S100000x1, .f32⟩
  | 127 => ⟨S_, .f32⟩
  | _ => ⟨S100000x8, .f32⟩

abbrev hbmTy0_1 (i : Nat) : BufTy := match i % 128 with
  | 0 => ⟨S100000x1, .f32⟩
  | 1 => ⟨S100000x1, .f32⟩
  | 2 => ⟨S100000x1, .f32⟩
  | 3 => ⟨S100000x9, .f32⟩
  | 4 => ⟨S1x64, .f32⟩
  | 5 => ⟨S1x64, .f32⟩
  | 6 => ⟨S1x1, .f32⟩
  | 7 => ⟨S100000x1, .f32⟩
  | 8 => ⟨S100000x1, .f32⟩
  | 9 => ⟨S100000x1, .f32⟩
  | _ => ⟨S100000x8, .f32⟩

abbrev hbmTy (i : Nat) : BufTy := match i / 128 with
  | 0 => hbmTy0_0 i
  | 1 => hbmTy0_1 i
  | _ => ⟨S100000x8, .f32⟩

abbrev bufTy : (tb : Table) → Fin (tcTables nBuf tb) → BufTy
  | .hbm, ⟨i, _⟩ => hbmTy i
  | .local _ .vmem, ⟨0, _⟩ => ⟨S16000x18, .f32⟩
  | .local _ .vmem, ⟨1, _⟩ => ⟨S16000x18, .f32⟩
  | .local _ .vmem, ⟨2, _⟩ => ⟨S18x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S16000x1, .f32⟩
  | .local _ .vmem, ⟨9, _⟩ => ⟨S16000x1, .f32⟩
  | .local _ .vmem, ⟨10, _⟩ => ⟨S5000x9, .f32⟩
  | .local _ .vmem, ⟨11, _⟩ => ⟨S5000x9, .f32⟩
  | .local _ .vmem, ⟨12, _⟩ => ⟨S9x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v6 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v7 : Ref sig .tc := ⟨.hbm, 110, rfl⟩
abbrev main_v8 : Ref sig .tc := ⟨.hbm, 111, rfl⟩
abbrev main_v9 : Ref sig .tc := ⟨.hbm, 112, rfl⟩
abbrev main_v10 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_cst : Ref sig .tc := ⟨.hbm, 117, rfl⟩
abbrev main_v14 : Ref sig .tc := ⟨.hbm, 118, rfl⟩
abbrev main_v15 : Ref sig .tc := ⟨.hbm, 119, rfl⟩
abbrev main_v16 : Ref sig .tc := ⟨.hbm, 120, rfl⟩
abbrev main_cst_0 : Ref sig .tc := ⟨.hbm, 121, rfl⟩
abbrev main_v17 : Ref sig .tc := ⟨.hbm, 122, rfl⟩
abbrev main_cst_1 : Ref sig .tc := ⟨.hbm, 123, rfl⟩
abbrev main_v18 : Ref sig .tc := ⟨.hbm, 124, rfl⟩
abbrev main_v19 : Ref sig .tc := ⟨.hbm, 125, rfl⟩
abbrev main_v20 : Ref sig .tc := ⟨.hbm, 126, rfl⟩
abbrev main_cst_2 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x8_0 : S1600000.BroadcastsInDim S1600000x8 (![0] : Fin 1 → Fin S1600000x8.rank)
  bcast_S_S1600000x8 : S_.BroadcastsInDim S1600000x8 (![] : Fin 0 → Fin S1600000x8.rank)
  bcast_S1600000_S1600000x2_0 : S1600000.BroadcastsInDim S1600000x2 (![0] : Fin 1 → Fin S1600000x2.rank)
  bcast_S_S1600000x2 : S_.BroadcastsInDim S1600000x2 (![] : Fin 0 → Fin S1600000x2.rank)
  concatenates_S1600000x8_S1600000x8_S1600000x2_S1600000x18_d1 : Shape.Concatenates [S1600000x8, S1600000x8, S1600000x2] S1600000x18 1
  shapeCasts_S64_S1x64 : S64.ShapeCasts S1x64
  shapeCasts_S1_S1x1 : S1.ShapeCasts S1x1
  inb_S16000x18_S16000x18_0_0 : ∀ a, (![0, 0] : Fin 2 → Nat) a + S16000x18.size a ≤ S16000x18.size a
  h_S16000x18 : 0 < S16000x18.numel
  shapeCasts_S16000x18_S16000x18 : S16000x18.ShapeCasts S16000x18
  bitsLt_bf16_f32 : FTy.bits .bf16 < FTy.bits .f32
  inb_S18x64_S18x64_0_0 : ∀ a, (![0, 0] : Fin 2 → Nat) a + S18x64.size a ≤ S18x64.size a
  h_S18x64 : 0 < S18x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  bcast_S_S100000x1 : S_.BroadcastsInDim S100000x1 (![] : Fin 0 → Fin S100000x1.rank)
  concatenates_S100000x8_S100000x1_S100000x9_d1 : Shape.Concatenates [S100000x8, S100000x1] S100000x9 1
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  inb_S9x64_S9x64_0_0 : ∀ a, (![0, 0] : Fin 2 → Nat) a + S9x64.size a ≤ S9x64.size a
  h_S9x64 : 0 < S9x64.numel
  broadcasts_S1x64_S5000x64 : S1x64.Broadcasts S5000x64
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  slices_S100000x8_S100000x1_0_7 : S100000x8.Slices ![0, 7] S100000x1
  gather_S100000x8_S1600000x1_S1600000x8_1_0_n_n_0_1_18_wf : GatherDims.WF S100000x8 S1600000x1 S1600000x8 [1] [0] [] [0] [] 1 ![1, 8]
  gather_S100000x2_S1600000x1_S1600000x2_1_0_n_n_0_1_12_wf : GatherDims.WF S100000x2 S1600000x1 S1600000x2 [1] [0] [] [0] [] 1 ![1, 2]
  dot_S16000x18_S18x64_S16000x64_1_0_0_1_n_n_wf : DotDims.WF S16000x18 S18x64 S16000x64 [1] [0] [0] [1] [] []
  dot_S16000x64_S64x64_S16000x64_1_0_0_1_n_n_wf : DotDims.WF S16000x64 S64x64 S16000x64 [1] [0] [0] [1] [] []
  dot_S16000x64_S64x1_S16000x1_1_0_0_1_n_n_wf : DotDims.WF S16000x64 S64x1 S16000x1 [1] [0] [0] [1] [] []
  scatter_S100000x1_S1600000x1_S1600000x1_1_0_0_1_wf : ScatterDims.WF S100000x1 S1600000x1 S1600000x1 [1] [0] [0] 1
  dot_S5000x9_S9x64_S5000x64_1_0_0_1_n_n_wf : DotDims.WF S5000x9 S9x64 S5000x64 [1] [0] [0] [1] [] []
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x18.size a ≤ S1600000x18.size a
  hwx0_0 : ∀ i : grid0.Coords, EltTy.bits .f32 = 32 ∨ (Rect.block (s := S1600000x18) S16000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x64.size a ≤ S18x64.size a
  hwx0_1 : ∀ i : grid0.Coords, EltTy.bits .f32 = 32 ∨ (Rect.block (s := S18x64) S18x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16000x1.size a ≤ S1600000x1.size a
  hwx0_7 : ∀ i : grid0.Coords, EltTy.bits .f32 = 32 ∨ (Rect.block (s := S1600000x1) S16000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x9.size a ≤ S100000x9.size a
  hwx1_0 : ∀ i : grid1.Coords, EltTy.bits .f32 = 32 ∨ (Rect.block (s := S100000x9) S5000x9.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x64.size a ≤ S9x64.size a
  hwx1_1 : ∀ i : grid1.Coords, EltTy.bits .f32 = 32 ∨ (Rect.block (s := S9x64) S9x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def dot_S16000x18_S18x64_S16000x64_1_0_0_1_n_n : DotDims S16000x18 S18x64 S16000x64 where
  lhsContracting := [1]
  rhsContracting := [0]
  lhsNonContracting := [0]
  rhsNonContracting := [1]
  lhsBatch := []
  rhsBatch := []
  wf := dot_S16000x18_S18x64_S16000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x64_S64x1_S16000x1_1_0_0_1_n_n : DotDims S16000x64 S64x1 S16000x1 where
  lhsContracting := [1]
  rhsContracting := [0]
  lhsNonContracting := [0]
  rhsNonContracting := [1]
  lhsBatch := []
  rhsBatch := []
  wf := dot_S16000x64_S64x1_S16000x1_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x9_S9x64_S5000x64_1_0_0_1_n_n : DotDims S5000x9 S9x64 S5000x64 where
  lhsContracting := [1]
  rhsContracting := [0]
  lhsNonContracting := [0]
  rhsNonContracting := [1]
  lhsBatch := []
  rhsBatch := []
  wf := dot_S5000x9_S9x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v9) S16000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S18x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S16000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v24) S5000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S9x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x8 : Shape := ⟨2, ![100000, 8]⟩
abbrev S100000x2 : Shape := ⟨2, ![100000, 2]⟩
abbrev S2x1600000 : Shape := ⟨2, ![2, 1600000]⟩
abbrev S18x64 : Shape := ⟨2, ![18, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S9x64 : Shape := ⟨2, ![9, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S1600000x2 : Shape := ⟨2, ![1600000, 2]⟩
abbrev S1600000x18 : Shape := ⟨2, ![1600000, 18]⟩
abbrev S1600000x64 : Shape := ⟨2, ![1600000, 64]⟩
abbrev S1x64 : Shape := ⟨2, ![1, 64]⟩
abbrev S1x1 : Shape := ⟨2, ![1, 1]⟩
abbrev S100000x1 : Shape := ⟨2, ![100000, 1]⟩
abbrev S100000x9 : Shape := ⟨2, ![100000, 9]⟩
abbrev S100000x64 : Shape := ⟨2, ![100000, 64]⟩

abbrev nBuf : Space → Nat
  | .hbm => 110
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S100000x2, .f32⟩
  | .hbm, ⟨2, _⟩ => ⟨S2x1600000, .i32⟩
  | .hbm, ⟨3, _⟩ => ⟨S18x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S9x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x1, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x8, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x8, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x2, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x2, .f32⟩
  | .hbm, ⟨55, _⟩ => ⟨S1600000x2, .f32⟩
  | .hbm, ⟨56, _⟩ => ⟨S1600000x18, .f32⟩
  | .hbm, ⟨57, _⟩ => ⟨S1600000x64, .f32⟩
  | .hbm, ⟨58, _⟩ => ⟨S1x64, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S1600000x64, .f32⟩
  | .hbm, ⟨63, _⟩ => ⟨S1600000x64, .f32⟩
  | .hbm, ⟨64, _⟩ => ⟨S1600000x64, .f32⟩
  | .hbm, ⟨65, _⟩ => ⟨S1x64, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S1600000x64, .f32⟩
  | .hbm, ⟨70, _⟩ => ⟨S1600000x64, .f32⟩
  | .hbm, ⟨71, _⟩ => ⟨S1600000x1, .f32⟩
  | .hbm, ⟨72, _⟩ => ⟨S1x1, .f32⟩
  | .hbm, ⟨73, _⟩ => ⟨S1600000x1, .f32⟩
  | .hbm, ⟨74, _⟩ => ⟨S1600000x1, .f32⟩
  | .hbm, ⟨75, _⟩ => ⟨S_, .f32⟩
  | .hbm, ⟨76, _⟩ => ⟨S100000x1, .f32⟩
  | .hbm, ⟨77, _⟩ => ⟨S1600000x1, .i32⟩
  | .hbm, ⟨78, _⟩ => ⟨S100000x1, .f32⟩
  | .hbm, ⟨79, _⟩ => ⟨S_, .f32⟩
  | .hbm, ⟨80, _⟩ => ⟨S1600000x1, .f32⟩
  | .hbm, ⟨81, _⟩ => ⟨S_, .f32⟩
  | .hbm, ⟨82, _⟩ => ⟨S100000x1, .f32⟩
  | .hbm, ⟨83, _⟩ => ⟨S1600000x1, .i32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S100000x1, .f32⟩
  | .hbm, ⟨89, _⟩ => ⟨S100000x9, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .f32⟩
  | .hbm, ⟨104, _⟩ => ⟨S100000x1, .f32⟩
  | .hbm, ⟨105, _⟩ => ⟨S1x1, .f32⟩
  | .hbm, ⟨106, _⟩ => ⟨S100000x1, .f32⟩
  | .hbm, ⟨107, _⟩ => ⟨S100000x1, .f32⟩
  | .hbm, ⟨108, _⟩ => ⟨S100000x1, .f32⟩
  | .hbm, ⟨109, _⟩ => ⟨S100000x1, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call0_cst : Ref sig .tc := ⟨.hbm, 61, rfl⟩
abbrev main_call0_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call1_cst : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_cst_8 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_call2_cst : Ref sig .tc := ⟨.hbm, 94, rfl⟩
abbrev main_call2_v0 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call3_cst : Ref sig .tc := ⟨.hbm, 101, rfl⟩
abbrev main_call3_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x8_S1600000x8_S1600000x2_S1600000x18_d1 : Shape.Concatenates [S1600000x8, S1600000x8, S1600000x2] S1600000x18 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S100000x1 : S_.BroadcastsInDim S100000x1 (![] : Fin 0 → Fin S100000x1.rank)
  bcast_S_S1600000x1 : S_.BroadcastsInDim S1600000x1 (![] : Fin 0 → Fin S1600000x1.rank)
  concatenates_S100000x8_S100000x1_S100000x9_d1 : Shape.Concatenates [S100000x8, S100000x1] S100000x9 1
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x1_S100000x1_0_1 : S1x1.BroadcastsInDim S100000x1 (![0, 1] : Fin 2 → Fin S100000x1.rank)
  slices_S100000x8_S100000x1_0_7 : S100000x8.Slices ![0, 7] S100000x1
  gather_S100000x8_S1600000x1_S1600000x8_1_0_n_n_0_1_18_wf : GatherDims.WF S100000x8 S1600000x1 S1600000x8 [1] [0] [] [0] [] 1 ![1, 8]
  gather_S100000x2_S1600000x1_S1600000x2_1_0_n_n_0_1_12_wf : GatherDims.WF S100000x2 S1600000x1 S1600000x2 [1] [0] [] [0] [] 1 ![1, 2]
  dot_S1600000x18_S18x64_S1600000x64_1_0_0_1_n_n_wf : DotDims.WF S1600000x18 S18x64 S1600000x64 [1] [0] [0] [1] [] []
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000x1_S1600000x1_S1600000x1_1_0_0_1_wf : ScatterDims.WF S100000x1 S1600000x1 S1600000x1 [1] [0] [0] 1
  dot_S100000x9_S9x64_S100000x64_1_0_0_1_n_n_wf : DotDims.WF S100000x9 S9x64 S100000x64 [1] [0] [0] [1] [] []
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def dot_S1600000x18_S18x64_S1600000x64_1_0_0_1_n_n : DotDims S1600000x18 S18x64 S1600000x64 where
  lhsContracting := [1]
  rhsContracting := [0]
  lhsNonContracting := [0]
  rhsNonContracting := [1]
  lhsBatch := []
  rhsBatch := []
  wf := dot_S1600000x18_S18x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KData.lean ====
/-
  The two row-tiled three-layer perceptrons of the word-level kernel program, as data for the pipeline library.

  Each pallas_call walks a one-dimensional grid over row tiles of its first operand (16000 rows of the 1.6 M edges
  for the first call, 5000 rows of the 100 000 nodes for the second); the six weight and bias operands are resident
  (one block, the whole array); the output is one column per row, tile by tile.  Per grid point the body reads its
  seven input blocks whole and stores ONE value over the whole output block, so after the body the output window's
  staging buffer is that stored value (written here as the canonical read-back of the single covering store), and
  every input window's buffer still is its block of the array found at region entry.

  All statements are generic in the float interpretation `F` and in the buffer contents `V` found at region entry.
-/
import proofs.«418762_j75462575390928_2_alg».proof.Proof.Gen.Kernel.Launch
import proofs.«418762_j75462575390928_2_alg».proof.Proof.Gen.Kernel.Skeleton
import proofs.«418762_j75462575390928_2_alg».proof.Proof.Gen.Kernel.Points
import Idealize.ShloMosaic.Lib.Pipeline.FrameBody
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (V : (c : Dev nD) → (b : Ref sig .tc) → Buf (Elt F) ((c : Thread nD τ).loc b))

/-! ## The edge perceptron (pallas_call 0) -/

/-- Window `w`'s block at grid point `t`, cut out of its array as found at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body reads and writes through, one per block shape. -/
abbrev rEdgeIn : Rect S16000x18 := Rect.unit (s := S16000x18) ![0, 0] S16000x18.size inb_S16000x18_S16000x18_0_0
abbrev rW18 : Rect S18x64 := Rect.unit (s := S18x64) ![0, 0] S18x64.size inb_S18x64_S18x64_0_0
abbrev rB64 : Rect S1x64 := Rect.unit (s := S1x64) ![0, 0] S1x64.size inb_S1x64_S1x64_0_0
abbrev rW64 : Rect S64x64 := Rect.unit (s := S64x64) ![0, 0] S64x64.size inb_S64x64_S64x64_0_0
abbrev rW1 : Rect S64x1 := Rect.unit (s := S64x1) ![0, 0] S64x1.size inb_S64x1_S64x1_0_0
abbrev rB1 : Rect S1x1 := Rect.unit (s := S1x1) ![0, 0] S1x1.size inb_S1x1_S1x1_0_0
abbrev rEdgeOut : Rect S16000x1 := Rect.unit (s := S16000x1) ![0, 0] S16000x1.size inb_S16000x1_S16000x1_0_0

/-- What the body leaves in the output block: its one whole-block store of the perceptron's value on the seven
    input blocks. -/
def out0_7 (x0 : Vec F S16000x18 .f32) (x1 : Vec F S18x64 .f32) (x2 : Vec F S1x64 .f32) (x3 : Vec F S64x64 .f32)
    (x4 : Vec F S1x64 .f32) (x5 : Vec F S64x1 .f32) (x6 : Vec F S1x1 .f32) : Vec F S16000x1 .f32 :=
  View.canon [⟨rEdgeOut, k0_pay1 (View.ld x0 rEdgeIn) (View.ld x1 rW18) (View.ld x2 rB64) (View.ld x3 rW64)
    (View.ld x4 rB64) (View.ld x5 rW1) (View.ld x6 rB1)⟩]

/-- The single store is over the whole block, so it covers it. -/
theorem cover0_7 (p0 : Vec F S16000x1 .f32) (y : S16000x1.Idx) :
    ∃ pc ∈ ([⟨rEdgeOut, p0⟩] : List (View.Piece (Elt F) S16000x1 .f32)), y ∈ pc.1.set :=
  View.cover_of_tiled [⟨rEdgeOut, p0⟩] S16000x1.size (by rfl) y

/-- The proof data of pipeline 0 on core `c`: arrays as found at entry; after the body every input buffer is its
    block and the output buffer the stored value; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by
  dsimp only [dat0]

/-! ## The node perceptron (pallas_call 1) -/

/-- Window `w`'s block at grid point `t`, cut out of its array as found at region entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rNodeIn : Rect S5000x9 := Rect.unit (s := S5000x9) ![0, 0] S5000x9.size inb_S5000x9_S5000x9_0_0
abbrev rW9 : Rect S9x64 := Rect.unit (s := S9x64) ![0, 0] S9x64.size inb_S9x64_S9x64_0_0
abbrev rNodeOut : Rect S5000x1 := Rect.unit (s := S5000x1) ![0, 0] S5000x1.size inb_S5000x1_S5000x1_0_0

/-- What the body leaves in the output block: its one whole-block store of the perceptron's value on the seven
    input blocks. -/
def out1_7 (x0 : Vec F S5000x9 .f32) (x1 : Vec F S9x64 .f32) (x2 : Vec F S1x64 .f32) (x3 : Vec F S64x64 .f32)
    (x4 : Vec F S1x64 .f32) (x5 : Vec F S64x1 .f32) (x6 : Vec F S1x1 .f32) : Vec F S5000x1 .f32 :=
  View.canon [⟨rNodeOut, k1_pay1 (View.ld x0 rNodeIn) (View.ld x1 rW9) (View.ld x2 rB64) (View.ld x3 rW64)
    (View.ld x4 rB64) (View.ld x5 rW1) (View.ld x6 rB1)⟩]

theorem cover1_7 (p0 : Vec F S5000x1 .f32) (y : S5000x1.Idx) :
    ∃ pc ∈ ([⟨rNodeOut, p0⟩] : List (View.Piece (Elt F) S5000x1 .f32)), y ∈ pc.1.set :=
  View.cover_of_tiled [⟨rNodeOut, p0⟩] S5000x1.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

end Cert.Kernel.Hand

end
-- ==== Proof.KBody.lean ====
/-
  The two kernel bodies of the word-level program against the pipeline library's body obligation.

  Each body is straight-line: seven whole-block loads of its input windows, one whole-block load of the output
  window whose value is never used, one whole-block store of a pure value of the seven loaded blocks.  So, run on
  staging memrefs that hold the seven input blocks and anything in the output block, it ends with the inputs as
  they were and the output block reading as the canonical read-back of that one covering store.  An input window
  is uncut and never idle and its block is left in place, so at EVERY grid point its current staging buffer holds
  the block of the array found at region entry, fetched at that point (window 0) or resident since the first
  (windows 1 to 6).  The two together are the obligation the pipeline library asks of a body, at every point.
-/
import proofs.«418762_j75462575390928_2_alg».proof.Proof.KData
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge perceptron (pallas_call 0) -/

/-! ## The inputs' buffers at every point

An input window is never cut and never idle, and the body leaves its block in place: so its current staging buffer
holds the block of the entry array at every point, whether the pipeline fetched it there or kept it from before. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## The body on whole staging memrefs -/

set_option maxHeartbeats 1000000 in
/-- The body reads its seven inputs whole, reads the output block once (the value is not used) and stores the
    perceptron's value over the whole output block: the inputs stay as read, the output reads as that one store. -/
theorem sound_kernel0 (c : Dev nD) (E : Set ℕ) (i : grid0.Coords)
    (a1 : Memref sig .tc .vmem S16000x18 .f32) (h1 : a1.IsWhole) (a2 : Memref sig .tc .vmem S18x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S64x1 .f32) (h6 : a6.IsWhole)
    (a7 : Memref sig .tc .vmem S1x1 .f32) (h7 : a7.IsWhole) (a8 : Memref sig .tc .vmem S16000x1 .f32) (h8 : a8.IsWhole)
    (x0 : Vec F S16000x18 .f32) (x1 : Vec F S18x64 .f32) (x2 : Vec F S1x64 .f32) (x3 : Vec F S64x64 .f32)
    (x4 : Vec F S1x64 .f32) (x5 : Vec F S64x1 .f32) (x6 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (out0_7 x0 x1 x2 x3 x4 x5 x6)) -∗ K ⟨⟩))
      ⊢ wp frame (wpE (defs₀ (F := F)) Variants.none c none) E (cc0__mlp3_kernel i a1 h1 a2 h2 a3 h3 a4 h4 a5 h5 a6 h6 a7 h7 a8 h8) K := by
  simp only [cc0__mlp3_kernel_eq_skeleton]; unfold cc0__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation -/

/-- What the pipeline hands the body at point `t`: the invariant, the core's dues, and each window's current
    staging memref at what it held before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the body hands back: the same invariant and dues, each window's memref at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- At any point the seven input memrefs hold their blocks, so the body's triple applies; the invariant and the
    dues are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's obligation for pallas_call 0, at every point. -/
theorem body_obligation0 (c : Dev nD) : BodyObligation (dat0 (F := F) V c) (defs₀ (F := F)) Variants.none () Set.univ := fun t => by
  rw [bigSep_W0, bigSep_W0]
  exact sound_body0 V c t

/-! # The node perceptron (pallas_call 1) -/

/-! ## The inputs' buffers at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The body on whole staging memrefs -/

set_option maxHeartbeats 1000000 in
/-- As for the edge perceptron, on the node tiles: seven whole reads, one unused read of the output block, one
    whole store. -/
theorem sound_kernel1 (c : Dev nD) (E : Set ℕ) (i : grid1.Coords)
    (a1 : Memref sig .tc .vmem S5000x9 .f32) (h1 : a1.IsWhole) (a2 : Memref sig .tc .vmem S9x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S64x1 .f32) (h6 : a6.IsWhole)
    (a7 : Memref sig .tc .vmem S1x1 .f32) (h7 : a7.IsWhole) (a8 : Memref sig .tc .vmem S5000x1 .f32) (h8 : a8.IsWhole)
    (x0 : Vec F S5000x9 .f32) (x1 : Vec F S9x64 .f32) (x2 : Vec F S1x64 .f32) (x3 : Vec F S64x64 .f32)
    (x4 : Vec F S1x64 .f32) (x5 : Vec F S64x1 .f32) (x6 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (out1_7 x0 x1 x2 x3 x4 x5 x6)) -∗ K ⟨⟩))
      ⊢ wp frame (wpE (defs₀ (F := F)) Variants.none c none) E (cc1__mlp3_kernel i a1 h1 a2 h2 a3 h3 a4 h4 a5 h5 a6 h6 a7 h7 a8 h8) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's obligation for pallas_call 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of the word-level program: ten items — six stretches of host operations, the edge perceptron's
  pallas_call, a stretch, the node perceptron's pallas_call, a last stretch — from the launch to the return.

  Between two items every unscoped buffer of the core is held whole at a known valuation: the launch memory, then
  what each host stretch computes from the one before, and after a pallas_call the valuation before it with the
  call's eight arrays at what its pipeline leaves (the seven inputs as found, the output at its write-backs folded).
  Beside the buffers ride the generator register at some state and the core's dues, at nothing.  A pallas_call
  takes its arrays out of the unscoped buffers at entry and puts them back at exit; its body obligation is the one
  proved for the body; it owes nothing and has no semaphore of its own.  The launch theorem over the ten items then
  gives: every weakly fair execution terminates, and every final memory holds each unscoped buffer at the last
  valuation — in particular each argument array as launched, since no item writes one.
-/
import proofs.«418762_j75462575390928_2_alg».proof.Proof.KBody
import proofs.«418762_j75462575390928_2_alg».proof.Proof.Gen.Kernel.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the two pallas_calls leave -/

/-- Every unscoped buffer after pallas_call 0: its eight arrays at what the pipeline leaves, the rest as entered. -/
def W7 (c : Dev nD) : Valuation τ sig (Elt F) :=
  Pipeline.withArrays spec0 c (V6 m c) fun w => (dat0 (fun c b => V6 m c b) c).arrAt w cfg0.N

theorem W7_arr (c : Dev nD) (w : Fin cfg0.W) :
    W7 m c (Proc.devRef .tc (Pipeline.arrRef spec0 w)) = (dat0 (fun c b => V6 m c b) c).arrAt w cfg0.N := by
  unfold W7; exact Pipeline.withArrays_arr spec0 launch0.win.arr_inj c _ _ w

/-- The calls' results when only the first is known: every item reads the first call's exit contents. -/
def outsA : Outs (F := F) := fun _ r c => W7 m c r

/-- Every unscoped buffer after pallas_call 1. -/
def W9 (c : Dev nD) : Valuation τ sig (Elt F) :=
  Pipeline.withArrays spec1 c (V8 m (outsA m) c) fun w => (dat1 (fun c b => V8 m (outsA m) c b) c).arrAt w cfg1.N

theorem W9_arr (c : Dev nD) (w : Fin cfg1.W) :
    W9 m c (Proc.devRef .tc (Pipeline.arrRef spec1 w)) = (dat1 (fun c b => V8 m (outsA m) c b) c).arrAt w cfg1.N := by
  unfold W9; exact Pipeline.withArrays_arr spec1 launch1.win.arr_inj c _ _ w

/-- What the calls leave: item 9 reads the second call's exit contents, every other item the first's. -/
def outs : Outs (F := F) := fun j r c => if j = 9 then W9 m c r else W7 m c r

/-- Item 7 reads the first call's exit contents under either reading. -/
theorem outs_at7 (r : Ref sig .tc) (c : Dev nD) : outs m 7 r c = outsA m 7 r c := by
  unfold outs outsA; exact if_neg (by decide)

/-- So the valuation the second call is entered from does not depend on which of the two readings it is built over. -/
theorem V8_outs (c : Dev nD) : V8 m (outs m) c = V8 m (outsA m) c := by
  show StableHlo.after hostOps1 (Function.update (V6 m c) main_v13 (outs m 7 main_v13 c))
    = StableHlo.after hostOps1 (Function.update (V6 m c) main_v13 (outsA m 7 main_v13 c))
  rw [outs_at7]

theorem X8_outs : (fun (c : Dev nD) (b : Ref sig .tc) => (V8 m (outs m) c b : Buf (Elt F) ((c : Thread nD τ).loc b)))
    = fun (c : Dev nD) (b : Ref sig .tc) => (V8 m (outsA m) c b : Buf (Elt F) ((c : Thread nD τ).loc b)) :=
  funext fun c => funext fun b => by rw [V8_outs]

/-- The first call's output array ends at its write-backs folded over the entry array. -/
theorem outs_7 (c : Dev nD) : outs m 7 main_v13 c = (dat0 (fun c b => V6 m c b) c).arrAt 7 cfg0.N := by
  rw [outs_at7]; exact W7_arr m c 7

/-- The second call's output array likewise, over the valuation the second call is entered from. -/
theorem outs_9 (c : Dev nD) : outs m 9 main_v28 c = (dat1 (fun c b => V8 m (outs m) c b) c).arrAt 7 cfg1.N := by
  rw [X8_outs]
  show (if (9 : ℕ) = 9 then W9 m c main_v28 else W7 m c main_v28) = _
  rw [if_pos rfl]; exact W9_arr m c 7

/-! ## A call's arrays among the unscoped buffers after it -/

/-- Every window but the last is an input, and its array is not the output's. -/
theorem isIn0 : ∀ w : Fin cfg0.W, w ≠ 7 → (cfg0.win w).isOut = false := by decide
theorem notOut0 : ∀ w : Fin cfg0.W, w ≠ 7 → Pipeline.arrRef spec0 w ∉ ([main_v13] : List (Ref sig .tc)) := by decide
theorem isIn1 : ∀ w : Fin cfg1.W, w ≠ 7 → (cfg1.win w).isOut = false := by decide
theorem notOut1 : ∀ w : Fin cfg1.W, w ≠ 7 → Pipeline.arrRef spec1 w ∉ ([main_v28] : List (Ref sig .tc)) := by decide

/-- After the first call each of its arrays holds what the pipeline leaves: an input is never written and no item
    between changes it; the output is the named result. -/
theorem hF0 (c : Dev nD) (w : Fin cfg0.W) :
    (dat0 (fun c b => V6 m c b) c).arrAt w cfg0.N = (fun b : Ref sig .tc => V7 m (outs m) c b) (Pipeline.arrRef spec0 w) := by
  by_cases hw : w = 7
  · subst hw
    show _ = Function.update (V6 m c) main_v13 (outs m 7 main_v13 c) main_v13
    rw [Function.update_self]; exact (outs_7 m c).symm
  · rw [(dat0 (fun c b => V6 m c b) c).arrAt_in w (isIn0 w hw), A_eq0]
    exact (V7_of m (outs m) c (Pipeline.arrRef spec0 w) (notOut0 w hw)).symm

/-- and every other buffer what it held at entry. -/
theorem hrest0 (c : Dev nD) : ∀ b : Ref sig .tc, b ∉ Finset.univ.image (Pipeline.arrRef spec0) →
    (fun b : Ref sig .tc => V7 m (outs m) c b) b = (fun b : Ref sig .tc => V6 m c b) b :=
  fun b hb => V7_of m (outs m) c b fun h =>
    hb (Finset.mem_image.mpr ⟨7, Finset.mem_univ _, (List.mem_singleton.mp h).symm⟩)

theorem hF1 (c : Dev nD) (w : Fin cfg1.W) :
    (dat1 (fun c b => V8 m (outs m) c b) c).arrAt w cfg1.N = (fun b : Ref sig .tc => V9 m (outs m) c b) (Pipeline.arrRef spec1 w) := by
  by_cases hw : w = 7
  · subst hw
    show _ = Function.update (V8 m (outs m) c) main_v28 (outs m 9 main_v28 c) main_v28
    rw [Function.update_self]; exact (outs_9 m c).symm
  · rw [(dat1 (fun c b => V8 m (outs m) c b) c).arrAt_in w (isIn1 w hw), A_eq1]
    exact (V9_of m (outs m) c (Pipeline.arrRef spec1 w) (notOut1 w hw)).symm

theorem hrest1 (c : Dev nD) : ∀ b : Ref sig .tc, b ∉ Finset.univ.image (Pipeline.arrRef spec1) →
    (fun b : Ref sig .tc => V9 m (outs m) c b) b = (fun b : Ref sig .tc => V8 m (outs m) c b) b :=
  fun b hb => V9_of m (outs m) c b fun h =>
    hb (Finset.mem_image.mpr ⟨7, Finset.mem_univ _, (List.mem_singleton.mp h).symm⟩)

/-! ## The proof data family and the thread state -/

/-- Each pipeline's proof data at the valuation its call is entered from: a literal match on the pipeline. -/
def pdats : (p : Fin 2) → (c : Dev nD) → Dat τ (Elt F) Unit ℕ (UR sig nD τ) ℕ (Pipeline.pin (pcfgs (F := F)) adm p) c
  | ⟨0, _⟩ => fun c => dat0 (fun c b => V6 m c b) c
  | ⟨1, _⟩ => fun c => dat1 (fun c b => V8 m (outs m) c b) c

abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every item: the generator register at some state, and the dues at nothing. -/
abbrev rest (c : Dev nD) : sProp 𝕄 := iprop((∃ r, prngReg c r) ∗ ∃ W, owes (c : Thread nD τ) (0 : CellTallies nD τ sig Unit) W)
abbrev rests : Fin 3 → Dev nD → sProp 𝕄 := fun _ c => rest c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The pallas_calls as items -/

set_option backward.isDefEq.respectTransparency.types false in
/-- The edge perceptron's call: entered from every unscoped buffer at the valuation after the sixth stretch, left at
    that valuation with the output array at the call's result. -/
def reg0 : RegionSeg (pcfgs (F := F)) adm (pdats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (fun c b => V6 m c b) c).loose
  hwaits := Pipeline.hwaits_of_owed_zero _ _ _ _ noPairs noLevels 0 fun _ _ => rfl
  pre c := iprop(StableHlo.held (c : Thread nD τ) (Pipeline.ucRefs τ sig) (V6 m c) ∗ rest c)
  post c := iprop(StableHlo.held (c : Thread nD τ) (Pipeline.ucRefs τ sig) (V7 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (fun b => V6 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V6 m c b) (fun b => V7 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node perceptron's call: entered from the valuation after the eighth item, left at it with the output array
    at the call's result. -/
def reg1 : RegionSeg (pcfgs (F := F)) adm (pdats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (fun c b => V8 m (outs m) c b) c).loose
  hwaits := Pipeline.hwaits_of_owed_zero _ _ _ _ noPairs noLevels 1 fun _ _ => rfl
  pre c := iprop(StableHlo.held (c : Thread nD τ) (Pipeline.ucRefs τ sig) (V8 m (outs m) c) ∗ rest c)
  post c := iprop(StableHlo.held (c : Thread nD τ) (Pipeline.ucRefs τ sig) (V9 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (fun b => V8 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V8 m (outs m) c b) (fun b => V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of the program from memory `m` with zero counters terminates, and every final memory
    holds each unscoped buffer of each core at the valuation after the tenth item. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V10 m (outs m) c b) := by
  refine Pipeline.θ_run_regions_kit_dev (pcfgs (F := F)) adm (pdats m) () cellOf_inj emb₁ defs₀ noVariants noPairs noLevels m ρ main
    (segs m (outs m) noVariants noPairs noLevels rests () (pdats m) (reg0 m) (reg1 m))
    (fun c Q => by
      rewrite [main_chain c, Seg.run_eq_chain,
        show (segs m (outs m) noVariants noPairs noLevels rests () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      sep_mono .rfl (by iintro ⟨-, H⟩; iexact H)⟩)
    (hinit := by
      refine Pipeline.initEach noPairs noLevels fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- In particular every argument array ends as launched: no host stretch writes one and no call may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c),
      (h c _ (mem_uc main_arg12 (by decide))).trans (V10_main_arg12 m (outs m) c),
      (h c _ (mem_uc main_arg13 (by decide))).trans (V10_main_arg13 m (outs m) c),
      (h c _ (mem_uc main_arg14 (by decide))).trans (V10_main_arg14 m (outs m) c)⟩) (run_all m ρ)

/-- The same run with the program's result named: the last stretch's output buffer ends at the last valuation's
    value for it, beside every argument array as launched. -/
theorem run_out (ρ : Dev nD → PrngReg) :
    θ_run defs (onTc (τ := τ) (main (F := F))) ⟨m, fun _ => 0, ρ⟩ (fun r => ∀ c : Dev nD,
      r.2.mem ((c.tc : Thread nD τ).loc main_v30) = V10 m (outs m) c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v30 (by decide)),
      (h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c),
      (h c _ (mem_uc main_arg12 (by decide))).trans (V10_main_arg12 m (outs m) c),
      (h c _ (mem_uc main_arg13 (by decide))).trans (V10_main_arg13 m (outs m) c),
      (h c _ (mem_uc main_arg14 (by decide))).trans (V10_main_arg14 m (outs m) c)⟩) (run_all m ρ)

end Cert.Kernel.Hand

end
-- ==== Proof.KiData.lean ====
/-
  The two row-tiled three-layer perceptrons of the idealized kernel program, as data for the pipeline library.

  Each pallas_call walks a one-dimensional grid over row tiles of its first operand (16000 rows of the 1.6 M edges
  for the first call, 5000 rows of the 100 000 nodes for the second); the six weight and bias operands are resident
  (one block, the whole array); the output is one column per row, tile by tile.  Per grid point the body reads its
  seven input blocks whole and stores ONE value over the whole output block, so after the body the output window's
  staging buffer is that stored value (written here as the canonical read-back of the single covering store), and
  every input window's buffer still is its block of the array found at region entry.

  All statements are generic in the float interpretation `F` and in the buffer contents `V` found at region entry.
-/
import proofs.«418762_j75462575390928_2_alg».proof.Proof.Gen.KernelIdeal.Launch
import proofs.«418762_j75462575390928_2_alg».proof.Proof.Gen.KernelIdeal.Skeleton
import proofs.«418762_j75462575390928_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

/-! ## The edge perceptron (pallas_call 0) -/

/-- Window `w`'s block at grid point `t`, cut out of its array as found at region entry. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body reads and writes through, one per block shape. -/
abbrev rEdgeIn : Rect S16000x18 := Rect.unit (s := S16000x18) ![0, 0] S16000x18.size inb_S16000x18_S16000x18_0_0
abbrev rW18 : Rect S18x64 := Rect.unit (s := S18x64) ![0, 0] S18x64.size inb_S18x64_S18x64_0_0
abbrev rB64 : Rect S1x64 := Rect.unit (s := S1x64) ![0, 0] S1x64.size inb_S1x64_S1x64_0_0
abbrev rW64 : Rect S64x64 := Rect.unit (s := S64x64) ![0, 0] S64x64.size inb_S64x64_S64x64_0_0
abbrev rW1 : Rect S64x1 := Rect.unit (s := S64x1) ![0, 0] S64x1.size inb_S64x1_S64x1_0_0
abbrev rB1 : Rect S1x1 := Rect.unit (s := S1x1) ![0, 0] S1x1.size inb_S1x1_S1x1_0_0
abbrev rEdgeOut : Rect S16000x1 := Rect.unit (s := S16000x1) ![0, 0] S16000x1.size inb_S16000x1_S16000x1_0_0

/-- What the body leaves in the output block: its one whole-block store of the perceptron's value on the seven
    input blocks. -/
def out0_7 (x0 : Vec F S16000x18 .f32) (x1 : Vec F S18x64 .f32) (x2 : Vec F S1x64 .f32) (x3 : Vec F S64x64 .f32)
    (x4 : Vec F S1x64 .f32) (x5 : Vec F S64x1 .f32) (x6 : Vec F S1x1 .f32) : Vec F S16000x1 .f32 :=
  View.canon [⟨rEdgeOut, k0_pay1 (View.ld x0 rEdgeIn) (View.ld x1 rW18) (View.ld x2 rB64) (View.ld x3 rW64)
    (View.ld x4 rB64) (View.ld x5 rW1) (View.ld x6 rB1)⟩]

/-- The single store is over the whole block, so it covers it. -/
theorem cover0_7 (p0 : Vec F S16000x1 .f32) (y : S16000x1.Idx) :
    ∃ pc ∈ ([⟨rEdgeOut, p0⟩] : List (View.Piece (Elt F) S16000x1 .f32)), y ∈ pc.1.set :=
  View.cover_of_tiled [⟨rEdgeOut, p0⟩] S16000x1.size (by rfl) y

/-- The proof data of pipeline 0 on core `c`: arrays as found at entry; after the body every input buffer is its
    block and the output buffer the stored value; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t =
    out0_7 (iblk0 V c 0 t) (iblk0 V c 1 t) (iblk0 V c 2 t) (iblk0 V c 3 t) (iblk0 V c 4 t) (iblk0 V c 5 t) (iblk0 V c 6 t) := by
  dsimp only [dat0]

/-! ## The node perceptron (pallas_call 1) -/

/-- Window `w`'s block at grid point `t`, cut out of its array as found at region entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rNodeIn : Rect S5000x9 := Rect.unit (s := S5000x9) ![0, 0] S5000x9.size inb_S5000x9_S5000x9_0_0
abbrev rW9 : Rect S9x64 := Rect.unit (s := S9x64) ![0, 0] S9x64.size inb_S9x64_S9x64_0_0
abbrev rNodeOut : Rect S5000x1 := Rect.unit (s := S5000x1) ![0, 0] S5000x1.size inb_S5000x1_S5000x1_0_0

/-- What the body leaves in the output block: its one whole-block store of the perceptron's value on the seven
    input blocks. -/
def out1_7 (x0 : Vec F S5000x9 .f32) (x1 : Vec F S9x64 .f32) (x2 : Vec F S1x64 .f32) (x3 : Vec F S64x64 .f32)
    (x4 : Vec F S1x64 .f32) (x5 : Vec F S64x1 .f32) (x6 : Vec F S1x1 .f32) : Vec F S5000x1 .f32 :=
  View.canon [⟨rNodeOut, k1_pay1 (View.ld x0 rNodeIn) (View.ld x1 rW9) (View.ld x2 rB64) (View.ld x3 rW64)
    (View.ld x4 rB64) (View.ld x5 rW1) (View.ld x6 rB1)⟩]

theorem cover1_7 (p0 : Vec F S5000x1 .f32) (y : S5000x1.Idx) :
    ∃ pc ∈ ([⟨rNodeOut, p0⟩] : List (View.Piece (Elt F) S5000x1 .f32)), y ∈ pc.1.set :=
  View.cover_of_tiled [⟨rNodeOut, p0⟩] S5000x1.size (by rfl) y

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t =
    out1_7 (iblk1 V c 0 t) (iblk1 V c 1 t) (iblk1 V c 2 t) (iblk1 V c 3 t) (iblk1 V c 4 t) (iblk1 V c 5 t) (iblk1 V c 6 t) := by
  dsimp only [dat1]

end Cert.KernelIdeal.Hand

end
-- ==== Proof.KiBody.lean ====
/-
  The two kernel bodies of the idealized program against the pipeline library's body obligation.

  Each body is straight-line: seven whole-block loads of its input windows, one whole-block load of the output
  window whose value is never used, one whole-block store of a pure value of the seven loaded blocks.  So, run on
  staging memrefs that hold the seven input blocks and anything in the output block, it ends with the inputs as
  they were and the output block reading as the canonical read-back of that one covering store.  An input window
  is uncut and never idle and its block is left in place, so at EVERY grid point its current staging buffer holds
  the block of the array found at region entry, fetched at that point (window 0) or resident since the first
  (windows 1 to 6).  The two together are the obligation the pipeline library asks of a body, at every point.
-/
import proofs.«418762_j75462575390928_2_alg».proof.Proof.KiData
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The edge perceptron (pallas_call 0) -/

/-! ## The inputs' buffers at every point

An input window is never cut and never idle, and the body leaves its block in place: so its current staging buffer
holds the block of the entry array at every point, whether the pipeline fetched it there or kept it from before. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

/-! ## The body on whole staging memrefs -/

set_option maxHeartbeats 1000000 in
/-- The body reads its seven inputs whole, reads the output block once (the value is not used) and stores the
    perceptron's value over the whole output block: the inputs stay as read, the output reads as that one store. -/
theorem sound_kernel0 (c : Dev nD) (E : Set ℕ) (i : grid0.Coords)
    (a1 : Memref sig .tc .vmem S16000x18 .f32) (h1 : a1.IsWhole) (a2 : Memref sig .tc .vmem S18x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S64x1 .f32) (h6 : a6.IsWhole)
    (a7 : Memref sig .tc .vmem S1x1 .f32) (h7 : a7.IsWhole) (a8 : Memref sig .tc .vmem S16000x1 .f32) (h8 : a8.IsWhole)
    (x0 : Vec F S16000x18 .f32) (x1 : Vec F S18x64 .f32) (x2 : Vec F S1x64 .f32) (x3 : Vec F S64x64 .f32)
    (x4 : Vec F S1x64 .f32) (x5 : Vec F S64x1 .f32) (x6 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (out0_7 x0 x1 x2 x3 x4 x5 x6)) -∗ K ⟨⟩))
      ⊢ wp frame (wpE (defs₀ (F := F)) Variants.none c none) E (cc0__mlp3_kernel i a1 h1 a2 h2 a3 h3 a4 h4 a5 h5 a6 h6 a7 h7 a8 h8) K := by
  simp only [cc0__mlp3_kernel_eq_skeleton]; unfold cc0__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The body obligation -/

/-- What the pipeline hands the body at point `t`: the invariant, the core's dues, and each window's current
    staging memref at what it held before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What the body hands back: the same invariant and dues, each window's memref at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- At any point the seven input memrefs hold their blocks, so the body's triple applies; the invariant and the
    dues are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's obligation for pallas_call 0, at every point. -/
theorem body_obligation0 (c : Dev nD) : BodyObligation (dat0 (F := F) V c) (defs₀ (F := F)) Variants.none () Set.univ := fun t => by
  rw [bigSep_W0, bigSep_W0]
  exact sound_body0 V c t

/-! # The node perceptron (pallas_call 1) -/

/-! ## The inputs' buffers at every point -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The body on whole staging memrefs -/

set_option maxHeartbeats 1000000 in
/-- As for the edge perceptron, on the node tiles: seven whole reads, one unused read of the output block, one
    whole store. -/
theorem sound_kernel1 (c : Dev nD) (E : Set ℕ) (i : grid1.Coords)
    (a1 : Memref sig .tc .vmem S5000x9 .f32) (h1 : a1.IsWhole) (a2 : Memref sig .tc .vmem S9x64 .f32) (h2 : a2.IsWhole)
    (a3 : Memref sig .tc .vmem S1x64 .f32) (h3 : a3.IsWhole) (a4 : Memref sig .tc .vmem S64x64 .f32) (h4 : a4.IsWhole)
    (a5 : Memref sig .tc .vmem S1x64 .f32) (h5 : a5.IsWhole) (a6 : Memref sig .tc .vmem S64x1 .f32) (h6 : a6.IsWhole)
    (a7 : Memref sig .tc .vmem S1x1 .f32) (h7 : a7.IsWhole) (a8 : Memref sig .tc .vmem S5000x1 .f32) (h8 : a8.IsWhole)
    (x0 : Vec F S5000x9 .f32) (x1 : Vec F S9x64 .f32) (x2 : Vec F S1x64 .f32) (x3 : Vec F S64x64 .f32)
    (x4 : Vec F S1x64 .f32) (x5 : Vec F S64x1 .f32) (x6 : Vec F S1x1 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ owns (c : Thread nD τ) a7 fullShare x6 ∗ (∃ d, owns (c : Thread nD τ) a8 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare x6 ∗ owns (c : Thread nD τ) a8 fullShare (out1_7 x0 x1 x2 x3 x4 x5 x6)) -∗ K ⟨⟩))
      ⊢ wp frame (wpE (defs₀ (F := F)) Variants.none c none) E (cc1__mlp3_kernel i a1 h1 a2 h2 a3 h3 a4 h4 a5 h5 a6 h6 a7 h7 a8 h8) K := by
  simp only [cc1__mlp3_kernel_eq_skeleton]; unfold cc1__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's obligation for pallas_call 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiRun.lean ====
/-
  The run of the idealized program: ten items — six stretches of host operations, the edge perceptron's
  pallas_call, a stretch, the node perceptron's pallas_call, a last stretch — from the launch to the return.

  Between two items every unscoped buffer of the core is held whole at a known valuation: the launch memory, then
  what each host stretch computes from the one before, and after a pallas_call the valuation before it with the
  call's eight arrays at what its pipeline leaves (the seven inputs as found, the output at its write-backs folded).
  Beside the buffers ride the generator register at some state and the core's dues, at nothing.  A pallas_call
  takes its arrays out of the unscoped buffers at entry and puts them back at exit; its body obligation is the one
  proved for the body; it owes nothing and has no semaphore of its own.  The launch theorem over the ten items then
  gives: every weakly fair execution terminates, and every final memory holds each unscoped buffer at the last
  valuation — in particular each argument array as launched, since no item writes one.
-/
import proofs.«418762_j75462575390928_2_alg».proof.Proof.KiBody
import proofs.«418762_j75462575390928_2_alg».proof.Proof.Gen.KernelIdeal.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the two pallas_calls leave -/

/-- Every unscoped buffer after pallas_call 0: its eight arrays at what the pipeline leaves, the rest as entered. -/
def W7 (c : Dev nD) : Valuation τ sig (Elt F) :=
  Pipeline.withArrays spec0 c (V6 m c) fun w => (dat0 (fun c b => V6 m c b) c).arrAt w cfg0.N

theorem W7_arr (c : Dev nD) (w : Fin cfg0.W) :
    W7 m c (Proc.devRef .tc (Pipeline.arrRef spec0 w)) = (dat0 (fun c b => V6 m c b) c).arrAt w cfg0.N := by
  unfold W7; exact Pipeline.withArrays_arr spec0 launch0.win.arr_inj c _ _ w

/-- The calls' results when only the first is known: every item reads the first call's exit contents. -/
def outsA : Outs (F := F) := fun _ r c => W7 m c r

/-- Every unscoped buffer after pallas_call 1. -/
def W9 (c : Dev nD) : Valuation τ sig (Elt F) :=
  Pipeline.withArrays spec1 c (V8 m (outsA m) c) fun w => (dat1 (fun c b => V8 m (outsA m) c b) c).arrAt w cfg1.N

theorem W9_arr (c : Dev nD) (w : Fin cfg1.W) :
    W9 m c (Proc.devRef .tc (Pipeline.arrRef spec1 w)) = (dat1 (fun c b => V8 m (outsA m) c b) c).arrAt w cfg1.N := by
  unfold W9; exact Pipeline.withArrays_arr spec1 launch1.win.arr_inj c _ _ w

/-- What the calls leave: item 9 reads the second call's exit contents, every other item the first's. -/
def outs : Outs (F := F) := fun j r c => if j = 9 then W9 m c r else W7 m c r

/-- Item 7 reads the first call's exit contents under either reading. -/
theorem outs_at7 (r : Ref sig .tc) (c : Dev nD) : outs m 7 r c = outsA m 7 r c := by
  unfold outs outsA; exact if_neg (by decide)

/-- So the valuation the second call is entered from does not depend on which of the two readings it is built over. -/
theorem V8_outs (c : Dev nD) : V8 m (outs m) c = V8 m (outsA m) c := by
  show StableHlo.after hostOps1 (Function.update (V6 m c) main_v13 (outs m 7 main_v13 c))
    = StableHlo.after hostOps1 (Function.update (V6 m c) main_v13 (outsA m 7 main_v13 c))
  rw [outs_at7]

theorem X8_outs : (fun (c : Dev nD) (b : Ref sig .tc) => (V8 m (outs m) c b : Buf (Elt F) ((c : Thread nD τ).loc b)))
    = fun (c : Dev nD) (b : Ref sig .tc) => (V8 m (outsA m) c b : Buf (Elt F) ((c : Thread nD τ).loc b)) :=
  funext fun c => funext fun b => by rw [V8_outs]

/-- The first call's output array ends at its write-backs folded over the entry array. -/
theorem outs_7 (c : Dev nD) : outs m 7 main_v13 c = (dat0 (fun c b => V6 m c b) c).arrAt 7 cfg0.N := by
  rw [outs_at7]; exact W7_arr m c 7

/-- The second call's output array likewise, over the valuation the second call is entered from. -/
theorem outs_9 (c : Dev nD) : outs m 9 main_v28 c = (dat1 (fun c b => V8 m (outs m) c b) c).arrAt 7 cfg1.N := by
  rw [X8_outs]
  show (if (9 : ℕ) = 9 then W9 m c main_v28 else W7 m c main_v28) = _
  rw [if_pos rfl]; exact W9_arr m c 7

/-! ## A call's arrays among the unscoped buffers after it -/

/-- Every window but the last is an input, and its array is not the output's. -/
theorem isIn0 : ∀ w : Fin cfg0.W, w ≠ 7 → (cfg0.win w).isOut = false := by decide
theorem notOut0 : ∀ w : Fin cfg0.W, w ≠ 7 → Pipeline.arrRef spec0 w ∉ ([main_v13] : List (Ref sig .tc)) := by decide
theorem isIn1 : ∀ w : Fin cfg1.W, w ≠ 7 → (cfg1.win w).isOut = false := by decide
theorem notOut1 : ∀ w : Fin cfg1.W, w ≠ 7 → Pipeline.arrRef spec1 w ∉ ([main_v28] : List (Ref sig .tc)) := by decide

/-- After the first call each of its arrays holds what the pipeline leaves: an input is never written and no item
    between changes it; the output is the named result. -/
theorem hF0 (c : Dev nD) (w : Fin cfg0.W) :
    (dat0 (fun c b => V6 m c b) c).arrAt w cfg0.N = (fun b : Ref sig .tc => V7 m (outs m) c b) (Pipeline.arrRef spec0 w) := by
  by_cases hw : w = 7
  · subst hw
    show _ = Function.update (V6 m c) main_v13 (outs m 7 main_v13 c) main_v13
    rw [Function.update_self]; exact (outs_7 m c).symm
  · rw [(dat0 (fun c b => V6 m c b) c).arrAt_in w (isIn0 w hw), A_eq0]
    exact (V7_of m (outs m) c (Pipeline.arrRef spec0 w) (notOut0 w hw)).symm

/-- and every other buffer what it held at entry. -/
theorem hrest0 (c : Dev nD) : ∀ b : Ref sig .tc, b ∉ Finset.univ.image (Pipeline.arrRef spec0) →
    (fun b : Ref sig .tc => V7 m (outs m) c b) b = (fun b : Ref sig .tc => V6 m c b) b :=
  fun b hb => V7_of m (outs m) c b fun h =>
    hb (Finset.mem_image.mpr ⟨7, Finset.mem_univ _, (List.mem_singleton.mp h).symm⟩)

theorem hF1 (c : Dev nD) (w : Fin cfg1.W) :
    (dat1 (fun c b => V8 m (outs m) c b) c).arrAt w cfg1.N = (fun b : Ref sig .tc => V9 m (outs m) c b) (Pipeline.arrRef spec1 w) := by
  by_cases hw : w = 7
  · subst hw
    show _ = Function.update (V8 m (outs m) c) main_v28 (outs m 9 main_v28 c) main_v28
    rw [Function.update_self]; exact (outs_9 m c).symm
  · rw [(dat1 (fun c b => V8 m (outs m) c b) c).arrAt_in w (isIn1 w hw), A_eq1]
    exact (V9_of m (outs m) c (Pipeline.arrRef spec1 w) (notOut1 w hw)).symm

theorem hrest1 (c : Dev nD) : ∀ b : Ref sig .tc, b ∉ Finset.univ.image (Pipeline.arrRef spec1) →
    (fun b : Ref sig .tc => V9 m (outs m) c b) b = (fun b : Ref sig .tc => V8 m (outs m) c b) b :=
  fun b hb => V9_of m (outs m) c b fun h =>
    hb (Finset.mem_image.mpr ⟨7, Finset.mem_univ _, (List.mem_singleton.mp h).symm⟩)

/-! ## The proof data family and the thread state -/

/-- Each pipeline's proof data at the valuation its call is entered from: a literal match on the pipeline. -/
def pdats : (p : Fin 2) → (c : Dev nD) → Dat τ (Elt F) Unit ℕ (UR sig nD τ) ℕ (Pipeline.pin (pcfgs (F := F)) adm p) c
  | ⟨0, _⟩ => fun c => dat0 (fun c b => V6 m c b) c
  | ⟨1, _⟩ => fun c => dat1 (fun c b => V8 m (outs m) c b) c

abbrev noVariants : Variants := Variants.none
/-- No core owes another anything: no level is assigned. -/
abbrev noPairs : GSem nD τ sig → Finset Unit := fun _ => ∅
abbrev noLevels : GSem nD τ sig → Unit → ℕ := fun _ _ => 0
/-- What rides beside the buffers through every item: the generator register at some state, and the dues at nothing. -/
abbrev rest (c : Dev nD) : sProp 𝕄 := iprop((∃ r, prngReg c r) ∗ ∃ W, owes (c : Thread nD τ) (0 : CellTallies nD τ sig Unit) W)
abbrev rests : Fin 3 → Dev nD → sProp 𝕄 := fun _ c => rest c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The pallas_calls as items -/

set_option backward.isDefEq.respectTransparency.types false in
/-- The edge perceptron's call: entered from every unscoped buffer at the valuation after the sixth stretch, left at
    that valuation with the output array at the call's result. -/
def reg0 : RegionSeg (pcfgs (F := F)) adm (pdats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (fun c b => V6 m c b) c).loose
  hwaits := Pipeline.hwaits_of_owed_zero _ _ _ _ noPairs noLevels 0 fun _ _ => rfl
  pre c := iprop(StableHlo.held (c : Thread nD τ) (Pipeline.ucRefs τ sig) (V6 m c) ∗ rest c)
  post c := iprop(StableHlo.held (c : Thread nD τ) (Pipeline.ucRefs τ sig) (V7 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (fun b => V6 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V6 m c b) (fun b => V7 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node perceptron's call: entered from the valuation after the eighth item, left at it with the output array
    at the call's result. -/
def reg1 : RegionSeg (pcfgs (F := F)) adm (pdats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (fun c b => V8 m (outs m) c b) c).loose
  hwaits := Pipeline.hwaits_of_owed_zero _ _ _ _ noPairs noLevels 1 fun _ _ => rfl
  pre c := iprop(StableHlo.held (c : Thread nD τ) (Pipeline.ucRefs τ sig) (V8 m (outs m) c) ∗ rest c)
  post c := iprop(StableHlo.held (c : Thread nD τ) (Pipeline.ucRefs τ sig) (V9 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (fun b => V8 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V8 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V8 m (outs m) c b) (fun b => V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- Every weakly fair execution of the program from memory `m` with zero counters terminates, and every final memory
    holds each unscoped buffer of each core at the valuation after the tenth item. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V10 m (outs m) c b) := by
  refine Pipeline.θ_run_regions_kit_dev (pcfgs (F := F)) adm (pdats m) () cellOf_inj emb₁ defs₀ noVariants noPairs noLevels m ρ main
    (segs m (outs m) noVariants noPairs noLevels rests () (pdats m) (reg0 m) (reg1 m))
    (fun c Q => by
      rewrite [main_chain c, Seg.run_eq_chain,
        show (segs m (outs m) noVariants noPairs noLevels rests () (pdats m) (reg0 m) (reg1 m) c).map Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V10 m (outs m) c))
    (hch := fun c => ⟨.rfl, .rfl, .rfl, .rfl, .rfl, .rfl, .rfl, .rfl, .rfl, .rfl,
      sep_mono .rfl (by iintro ⟨-, H⟩; iexact H)⟩)
    (hinit := by
      refine Pipeline.initEach noPairs noLevels fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m (outs m) c b)
    (hfin := fun c s' => by
      iintro ⟨Hh, HSI⟩
      unfold StableHlo.held
      imodintro
      iapply (pointsTo_read_all (Pipeline.ucRefs τ sig) (fun b => (((c : Thread nD τ)).1, b)) (V10 m (outs m) c) s')
      isplitl [Hh] <;> iassumption)
    (hQ := fun _ h => h)

/-- In particular every argument array ends as launched: no host stretch writes one and no call may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c),
      (h c _ (mem_uc main_arg12 (by decide))).trans (V10_main_arg12 m (outs m) c),
      (h c _ (mem_uc main_arg13 (by decide))).trans (V10_main_arg13 m (outs m) c),
      (h c _ (mem_uc main_arg14 (by decide))).trans (V10_main_arg14 m (outs m) c)⟩) (run_all m ρ)

/-- The same run with the program's result named: the last stretch's output buffer ends at the last valuation's
    value for it, beside every argument array as launched. -/
theorem run_out (ρ : Dev nD → PrngReg) :
    θ_run defs (onTc (τ := τ) (main (F := F))) ⟨m, fun _ => 0, ρ⟩ (fun r => ∀ c : Dev nD,
      r.2.mem ((c.tc : Thread nD τ).loc main_v30) = V10 m (outs m) c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v30 (by decide)),
      (h c _ (mem_uc main_arg0 (by decide))).trans (V10_main_arg0 m (outs m) c),
      (h c _ (mem_uc main_arg1 (by decide))).trans (V10_main_arg1 m (outs m) c),
      (h c _ (mem_uc main_arg2 (by decide))).trans (V10_main_arg2 m (outs m) c),
      (h c _ (mem_uc main_arg3 (by decide))).trans (V10_main_arg3 m (outs m) c),
      (h c _ (mem_uc main_arg4 (by decide))).trans (V10_main_arg4 m (outs m) c),
      (h c _ (mem_uc main_arg5 (by decide))).trans (V10_main_arg5 m (outs m) c),
      (h c _ (mem_uc main_arg6 (by decide))).trans (V10_main_arg6 m (outs m) c),
      (h c _ (mem_uc main_arg7 (by decide))).trans (V10_main_arg7 m (outs m) c),
      (h c _ (mem_uc main_arg8 (by decide))).trans (V10_main_arg8 m (outs m) c),
      (h c _ (mem_uc main_arg9 (by decide))).trans (V10_main_arg9 m (outs m) c),
      (h c _ (mem_uc main_arg10 (by decide))).trans (V10_main_arg10 m (outs m) c),
      (h c _ (mem_uc main_arg11 (by decide))).trans (V10_main_arg11 m (outs m) c),
      (h c _ (mem_uc main_arg12 (by decide))).trans (V10_main_arg12 m (outs m) c),
      (h c _ (mem_uc main_arg13 (by decide))).trans (V10_main_arg13 m (outs m) c),
      (h c _ (mem_uc main_arg14 (by decide))).trans (V10_main_arg14 m (outs m) c)⟩) (run_all m ρ)

end Cert.KernelIdeal.Hand

end
-- ==== Proof.MlpSpec.lean ====
/-
  The three-layer perceptron both programs apply to every row, as one function of the row on the extended reals:
  two hidden layers of 64 units with the positive part after each (`max · 0`), then a linear read-out to one number,
    out = Σ_k max (Σ_j max (Σ_i x_i · W0_ij + b0_j) 0 · W1_jk + b1_k) 0 · W2_k + b2.
  Only sums, products and maxima of extended reals occur: no law beyond reindexing a finite sum is needed to see that a
  row-tiled evaluation and a whole-array evaluation agree, so finiteness of the inputs is never used.
-/
import Idealize.ShloMosaic.PureOps.Ideal

noncomputable section

namespace Cert.Mlp

open scoped BigOperators

/-- The perceptron's value on one row `x` of `n` features. -/
def mlpRow {n : ℕ} (x : Fin n → EReal) (W0 : Fin n → Fin 64 → EReal) (b0 : Fin 64 → EReal)
    (W1 : Fin 64 → Fin 64 → EReal) (b1 : Fin 64 → EReal) (W2 : Fin 64 → EReal) (b2 : EReal) : EReal :=
  (∑ k : Fin 64, max ((∑ j : Fin 64, max ((∑ i : Fin n, x i * W0 i j) + b0 j) 0 * W1 j k) + b1 k) 0 * W2 k) + b2

/-- Rows that agree feature by feature have the same value. -/
theorem mlpRow_congr {n : ℕ} {x y : Fin n → EReal} (h : ∀ i, x i = y i) (W0 : Fin n → Fin 64 → EReal) (b0 : Fin 64 → EReal)
    (W1 : Fin 64 → Fin 64 → EReal) (b1 : Fin 64 → EReal) (W2 : Fin 64 → EReal) (b2 : EReal) :
    mlpRow x W0 b0 W1 b1 W2 b2 = mlpRow y W0 b0 W1 b1 W2 b2 := by
  rw [show x = y from funext h]

end Cert.Mlp

end
-- ==== Proof.KiValue.lean ====
/-
  What the two perceptron regions leave in their output arrays, at the ideal (extended-real) reading: entry by entry
  the row perceptron `Cert.Mlp.mlpRow` of the corresponding row of the region's first operand, with the weights and
  biases as the region finds them.  Row `e` of the output lies in the block of grid point `e / rows_per_block`; the
  body's stored value at row `e % rows_per_block` of that block is three matrix products (each a finite sum of products
  over the contracted axis, the narrowing to a shorter float format being the identity on extended reals), each followed
  by the addition of a broadcast bias row and, for the two hidden layers, the maximum with zero.
-/
import proofs.«418762_j75462575390928_2_alg».proof.Proof.KiData
import proofs.«418762_j75462575390928_2_alg».proof.Proof.MlpSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Mlp

variable (V : (c : Dev nD) → (b : Ref sig .tc) → Buf (Elt Ideal) ((c : Thread nD τ).loc b))

/-! ## The edge perceptron's three matrix products at an index -/

theorem lhs_edge1_0 (i : S16000x64.Idx) (q : dot_S16000x18_S18x64_S16000x64_1_0_0_1_n_n.contr.Idx) :
    (dot_S16000x18_S18x64_S16000x64_1_0_0_1_n_n.lhsIdx i q 0).val = (i 0).val := by
  unfold DotDims.lhsIdx
  rw [dif_neg (show ¬(0 : Fin S16000x18.rank) ∈ dot_S16000x18_S18x64_S16000x64_1_0_0_1_n_n.lhsBatch by decide), dif_pos (show (0 : Fin S16000x18.rank) ∈ dot_S16000x18_S18x64_S16000x64_1_0_0_1_n_n.lhsNonContracting by decide)]
  rfl
theorem lhs_edge1_1 (i : S16000x64.Idx) (q : dot_S16000x18_S18x64_S16000x64_1_0_0_1_n_n.contr.Idx) :
    (dot_S16000x18_S18x64_S16000x64_1_0_0_1_n_n.lhsIdx i q 1).val = (q ⟨0, by decide⟩).val :=
  dot_S16000x18_S18x64_S16000x64_1_0_0_1_n_n.lhsIdx_val_of_single rfl i q
theorem rhs_edge1_0 (i : S16000x64.Idx) (q : dot_S16000x18_S18x64_S16000x64_1_0_0_1_n_n.contr.Idx) :
    (dot_S16000x18_S18x64_S16000x64_1_0_0_1_n_n.rhsIdx i q 0).val = (q ⟨0, by decide⟩).val :=
  dot_S16000x18_S18x64_S16000x64_1_0_0_1_n_n.rhsIdx_val_of_single rfl i q
theorem rhs_edge1_1 (i : S16000x64.Idx) (q : dot_S16000x18_S18x64_S16000x64_1_0_0_1_n_n.contr.Idx) :
    (dot_S16000x18_S18x64_S16000x64_1_0_0_1_n_n.rhsIdx i q 1).val = (i 1).val := by
  unfold DotDims.rhsIdx
  rw [dif_neg (show ¬(1 : Fin S18x64.rank) ∈ dot_S16000x18_S18x64_S16000x64_1_0_0_1_n_n.rhsBatch by decide), dif_pos (show (1 : Fin S18x64.rank) ∈ dot_S16000x18_S18x64_S16000x64_1_0_0_1_n_n.rhsNonContracting by decide)]
  rfl

/-- The first product, rows of 18 features against the 18 × 64 weights, into the zero accumulator: entry `(p, j)` is
    the sum over the 18 features. -/
theorem matmul_edge1_apply {φ₁ φ₂ : FTy} (l : FVec Ideal S16000x18 φ₁) (r : FVec Ideal S18x64 φ₂) (p : Fin 16000) (j : Fin 64) :
    matmul dot_S16000x18_S18x64_S16000x64_1_0_0_1_n_n none l r (constant (F := Ideal) S16000x64 .f32 0x00000000#32) (ix2 p j)
      = ∑ k : Fin 18, l (ix2 p k) * r (ix2 k j) := by
  simp only [matmul]
  rw [Ideal.matmul_constant_zero_apply, ← Equiv.sum_comp (contrEquiv1 dot_S16000x18_S18x64_S16000x64_1_0_0_1_n_n 18 rfl rfl).symm]
  refine Finset.sum_congr rfl fun k _ => ?_
  have hk := contrEquiv1_symm_val dot_S16000x18_S18x64_S16000x64_1_0_0_1_n_n 18 rfl rfl k
  have el : dot_S16000x18_S18x64_S16000x64_1_0_0_1_n_n.lhsIdx (ix2 p j) ((contrEquiv1 dot_S16000x18_S18x64_S16000x64_1_0_0_1_n_n 18 rfl rfl).symm k) = ix2 p k := funext fun a => Fin.ext (by
    match a with
    | ⟨0, _⟩ => exact lhs_edge1_0 _ _
    | ⟨1, _⟩ => exact (lhs_edge1_1 _ _).trans hk)
  have er : dot_S16000x18_S18x64_S16000x64_1_0_0_1_n_n.rhsIdx (ix2 p j) ((contrEquiv1 dot_S16000x18_S18x64_S16000x64_1_0_0_1_n_n 18 rfl rfl).symm k) = ix2 k j := funext fun a => Fin.ext (by
    match a with
    | ⟨0, _⟩ => exact (rhs_edge1_0 _ _).trans hk
    | ⟨1, _⟩ => exact rhs_edge1_1 _ _)
  rw [el, er]

theorem lhs_edge2_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem lhs_edge2_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem rhs_edge2_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem rhs_edge2_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The second product, rows of 64 hidden units against the 64 × 64 weights: entry `(p, j)` is the sum over the 64
    units of the first hidden layer. -/
theorem matmul_edge2_apply {φ₁ φ₂ : FTy} (l : FVec Ideal S16000x64 φ₁) (r : FVec Ideal S64x64 φ₂) (p : Fin 16000) (j : Fin 64) :
    matmul dot_S16000x64_S64x64_S16000x64_1_0_0_1_n_n none l r (constant (F := Ideal) S16000x64 .f32 0x00000000#32) (ix2 p j)
      = ∑ k : Fin 64, l (ix2 p k) * r (ix2 k j) := by
  simp only [matmul]
  rw [Ideal.matmul_constant_zero_apply, ← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p j) ((contrEquiv1 dot_S16000x64_S64x64_S16000x64_1_0_0_1_n_n 64 rfl rfl).symm k) = ix2 p k := funext fun a => Fin.ext (by
    match a with
    | ⟨0, _⟩ => exact lhs_edge2_0 _ _
    | ⟨1, _⟩ => exact (lhs_edge2_1 _ _).trans hk)
  have er : dot_S16000x64_S64x64_S16000x64_1_0_0_1_n_n.rhsIdx (ix2 p j) ((contrEquiv1 dot_S16000x64_S64x64_S16000x64_1_0_0_1_n_n 64 rfl rfl).symm k) = ix2 k j := funext fun a => Fin.ext (by
    match a with
    | ⟨0, _⟩ => exact (rhs_edge2_0 _ _).trans hk
    | ⟨1, _⟩ => exact rhs_edge2_1 _ _)
  rw [el, er]

theorem lhs_edge3_0 (i : S16000x1.Idx) (q : dot_S16000x64_S64x1_S16000x1_1_0_0_1_n_n.contr.Idx) :
    (dot_S16000x64_S64x1_S16000x1_1_0_0_1_n_n.lhsIdx i q 0).val = (i 0).val := by
  unfold DotDims.lhsIdx
  rw [dif_neg (show ¬(0 : Fin S16000x64.rank) ∈ dot_S16000x64_S64x1_S16000x1_1_0_0_1_n_n.lhsBatch by decide), dif_pos (show (0 : Fin S16000x64.rank) ∈ dot_S16000x64_S64x1_S16000x1_1_0_0_1_n_n.lhsNonContracting by decide)]
  rfl
theorem lhs_edge3_1 (i : S16000x1.Idx) (q : dot_S16000x64_S64x1_S16000x1_1_0_0_1_n_n.contr.Idx) :
    (dot_S16000x64_S64x1_S16000x1_1_0_0_1_n_n.lhsIdx i q 1).val = (q ⟨0, by decide⟩).val :=
  dot_S16000x64_S64x1_S16000x1_1_0_0_1_n_n.lhsIdx_val_of_single rfl i q
theorem rhs_edge3_0 (i : S16000x1.Idx) (q : dot_S16000x64_S64x1_S16000x1_1_0_0_1_n_n.contr.Idx) :
    (dot_S16000x64_S64x1_S16000x1_1_0_0_1_n_n.rhsIdx i q 0).val = (q ⟨0, by decide⟩).val :=
  dot_S16000x64_S64x1_S16000x1_1_0_0_1_n_n.rhsIdx_val_of_single rfl i q
theorem rhs_edge3_1 (i : S16000x1.Idx) (q : dot_S16000x64_S64x1_S16000x1_1_0_0_1_n_n.contr.Idx) :
    (dot_S16000x64_S64x1_S16000x1_1_0_0_1_n_n.rhsIdx i q 1).val = (i 1).val := by
  unfold DotDims.rhsIdx
  rw [dif_neg (show ¬(1 : Fin S64x1.rank) ∈ dot_S16000x64_S64x1_S16000x1_1_0_0_1_n_n.rhsBatch by decide), dif_pos (show (1 : Fin S64x1.rank) ∈ dot_S16000x64_S64x1_S16000x1_1_0_0_1_n_n.rhsNonContracting by decide)]
  rfl

/-- The read-out product, rows of 64 hidden units against the 64 × 1 weights: entry `(p, 0)` is the sum over the 64
    units of the second hidden layer. -/
theorem matmul_edge3_apply {φ₁ φ₂ : FTy} (l : FVec Ideal S16000x64 φ₁) (r : FVec Ideal S64x1 φ₂) (p : Fin 16000) (j : Fin 1) :
    matmul dot_S16000x64_S64x1_S16000x1_1_0_0_1_n_n none l r (constant (F := Ideal) S16000x1 .f32 0x00000000#32) (ix2 p j)
      = ∑ k : Fin 64, l (ix2 p k) * r (ix2 k j) := by
  simp only [matmul]
  rw [Ideal.matmul_constant_zero_apply, ← Equiv.sum_comp (contrEquiv1 dot_S16000x64_S64x1_S16000x1_1_0_0_1_n_n 64 rfl rfl).symm]
  refine Finset.sum_congr rfl fun k _ => ?_
  have hk := contrEquiv1_symm_val dot_S16000x64_S64x1_S16000x1_1_0_0_1_n_n 64 rfl rfl k
  have el : dot_S16000x64_S64x1_S16000x1_1_0_0_1_n_n.lhsIdx (ix2 p j) ((contrEquiv1 dot_S16000x64_S64x1_S16000x1_1_0_0_1_n_n 64 rfl rfl).symm k) = ix2 p k := funext fun a => Fin.ext (by
    match a with
    | ⟨0, _⟩ => exact lhs_edge3_0 _ _
    | ⟨1, _⟩ => exact (lhs_edge3_1 _ _).trans hk)
  have er : dot_S16000x64_S64x1_S16000x1_1_0_0_1_n_n.rhsIdx (ix2 p j) ((contrEquiv1 dot_S16000x64_S64x1_S16000x1_1_0_0_1_n_n 64 rfl rfl).symm k) = ix2 k j := funext fun a => Fin.ext (by
    match a with
    | ⟨0, _⟩ => exact (rhs_edge3_0 _ _).trans hk
    | ⟨1, _⟩ => exact rhs_edge3_1 _ _)
  rw [el, er]

/-! ## The edge perceptron's stored value at a row -/

/-- Row `p` of the value the body stores is the perceptron of row `p` of the feature block: each product is the finite
    sum over its contracted axis, the narrowing of the operands is the identity, each bias row is read at the column, and
    the zero the hidden layers are compared with is the extended real `0`. -/
theorem edge_pay_apply (x0 : Vec Ideal S16000x18 .f32) (x1 : Vec Ideal S18x64 .f32) (x2 : Vec Ideal S1x64 .f32)
    (x3 : Vec Ideal S64x64 .f32) (x4 : Vec Ideal S1x64 .f32) (x5 : Vec Ideal S64x1 .f32) (x6 : Vec Ideal S1x1 .f32) (p : Fin 16000) :
    k0_pay1 (F := Ideal) x0 x1 x2 x3 x4 x5 x6 (ix2 p (0 : Fin 1)) =
      mlpRow (fun k : Fin 18 => x0 (ix2 p k)) (fun (k : Fin 18) (j : Fin 64) => x1 (ix2 k j)) (fun j : Fin 64 => x2 (ix2 (0 : Fin 1) j))
        (fun (j k : Fin 64) => x3 (ix2 j k)) (fun k : Fin 64 => x4 (ix2 (0 : Fin 1) k)) (fun k : Fin 64 => x5 (ix2 k (0 : Fin 1)))
        (x6 (ix2 (0 : Fin 1) (0 : Fin 1))) := by
  have h0 : (Scalar.ofBits (F := Ideal) .f32 0x00000000#32 : Ideal .f32) = (0 : EReal) := Ideal.ofBits_zero_f32
  unfold k0_pay1 mlpRow
  simp only [shapeCast_self]
  rw [addf_apply, matmul_edge3_apply, broadcastTo_1b_ab_apply]
  refine congrArg (· + x6 (ix2 (0 : Fin 1) (0 : Fin 1))) (Finset.sum_congr rfl fun k _ => ?_)
  rw [truncf_apply, truncf_apply, maximumf_apply, broadcast_apply, h0, addf_apply, matmul_edge2_apply, broadcastTo_1b_ab_apply]
  refine congrArg (fun s => max (s + x4 (ix2 (0 : Fin 1) k)) 0 * x5 (ix2 k (0 : Fin 1))) (Finset.sum_congr rfl fun j _ => ?_)
  rw [truncf_apply, truncf_apply, maximumf_apply, broadcast_apply, addf_apply, matmul_edge1_apply, broadcastTo_1b_ab_apply]
  refine congrArg (fun s => max (s + x2 (ix2 (0 : Fin 1) j)) 0 * x3 (ix2 j k)) (Finset.sum_congr rfl fun i _ => ?_)
  rw [truncf_apply, truncf_apply]

/-! ## From the edge blocks to the edge output array -/

/-- The zero offsets the body's whole-block loads and its store are printed with. -/
theorem zero_offsets : (![0, 0] : Fin 2 → Nat) = fun _ => 0 :=
  funext fun a => by match a with | ⟨0, _⟩ => rfl | ⟨1, _⟩ => rfl

/-- The value the body stores, at any index of the output block: the perceptron of that row of the feature block. -/
theorem edge_pay_row (x0 : Vec Ideal S16000x18 .f32) (x1 : Vec Ideal S18x64 .f32) (x2 : Vec Ideal S1x64 .f32)
    (x3 : Vec Ideal S64x64 .f32) (x4 : Vec Ideal S1x64 .f32) (x5 : Vec Ideal S64x1 .f32) (x6 : Vec Ideal S1x1 .f32) (z : S16000x1.Idx) :
    k0_pay1 (F := Ideal) x0 x1 x2 x3 x4 x5 x6 z =
      mlpRow (fun k : Fin 18 => x0 (ix2 (⟨(z 0).val, (z 0).isLt⟩ : Fin 16000) k)) (fun (k : Fin 18) (j : Fin 64) => x1 (ix2 k j))
        (fun j : Fin 64 => x2 (ix2 (0 : Fin 1) j)) (fun (j k : Fin 64) => x3 (ix2 j k)) (fun k : Fin 64 => x4 (ix2 (0 : Fin 1) k))
        (fun k : Fin 64 => x5 (ix2 k (0 : Fin 1))) (x6 (ix2 (0 : Fin 1) (0 : Fin 1))) := by
  obtain ⟨p, q, rfl⟩ : ∃ (p : Fin 16000) (q : Fin 1), z = ix2 p q := ⟨z 0, z 1, eq_ix2 z⟩
  obtain rfl : q = 0 := Fin.ext (by omega)
  exact edge_pay_apply x0 x1 x2 x3 x4 x5 x6 p

/-- The block index maps over the grid: the feature window and the output window walk the row tiles, the six weight
    and bias windows stay at their one block. -/
theorem edge_block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The edge output array as ONE function of the arrays the region finds: row by row the perceptron. -/
def edgeOut (c : Dev nD) : S1600000x1.Idx → EReal := fun i =>
  mlpRow (fun k : Fin 18 => (V c main_v9 : S1600000x18.Idx → EReal) (ix2 (⟨(i 0).val, (i 0).isLt⟩ : Fin 1600000) k))
    (fun (k : Fin 18) (j : Fin 64) => (V c main_arg3 : S18x64.Idx → EReal) (ix2 k j))
    (fun j : Fin 64 => (V c main_v10 : S1x64.Idx → EReal) (ix2 (0 : Fin 1) j))
    (fun (j k : Fin 64) => (V c main_arg5 : S64x64.Idx → EReal) (ix2 j k))
    (fun k : Fin 64 => (V c main_v11 : S1x64.Idx → EReal) (ix2 (0 : Fin 1) k))
    (fun k : Fin 64 => (V c main_arg7 : S64x1.Idx → EReal) (ix2 k (0 : Fin 1)))
    ((V c main_v12 : S1x1.Idx → EReal) (ix2 (0 : Fin 1) (0 : Fin 1)))

/-- The feature block at point `t` is rows `16000 t … 16000 t + 15999` of the feature array. -/
theorem edge_rows_apply (c : Dev nD) (t : Fin cfg0.N) (p : Fin 16000) (k : Fin 18) (r : Fin 1600000)
    (hr : r.val = t.val * 16000 + p.val) :
    (iblk0 V c 0 t : Vec Ideal S16000x18 .f32) (ix2 p k) = (V c main_v9 : S1600000x18.Idx → EReal) (ix2 r k) := by
  obtain ⟨e0, e1, -⟩ := edge_block_indices t
  unfold iblk0
  rw [View.read_apply]
  show V c main_v9 _ = V c main_v9 _
  congr 1
  funext a
  apply Fin.ext
  match a with
  | ⟨0, _⟩ => show win0_0.index t 0 * 16000 + 1 * p.val = r.val; rw [e0, hr]; omega
  | ⟨1, _⟩ => show win0_0.index t 1 * 18 + 1 * k.val = k.val; rw [e1]; omega

/-- Each weight and bias block is its whole array, at every point. -/
theorem edge_w0_apply (c : Dev nD) (t : Fin cfg0.N) (k : Fin 18) (j : Fin 64) :
    (iblk0 V c 1 t : Vec Ideal S18x64 .f32) (ix2 k j) = (V c main_arg3 : S18x64.Idx → EReal) (ix2 k j) := by
  obtain ⟨-, -, e0, e1, -⟩ := edge_block_indices t
  unfold iblk0
  rw [View.read_apply]
  show V c main_arg3 _ = V c main_arg3 _
  congr 1
  funext a
  apply Fin.ext
  match a with
  | ⟨0, _⟩ => show win0_1.index t 0 * 18 + 1 * k.val = k.val; rw [e0]; omega
  | ⟨1, _⟩ => show win0_1.index t 1 * 64 + 1 * j.val = j.val; rw [e1]; omega
theorem edge_b0_apply (c : Dev nD) (t : Fin cfg0.N) (u : Fin 1) (j : Fin 64) :
    (iblk0 V c 2 t : Vec Ideal S1x64 .f32) (ix2 u j) = (V c main_v10 : S1x64.Idx → EReal) (ix2 u j) := by
  obtain ⟨-, -, -, -, e0, e1, -⟩ := edge_block_indices t
  unfold iblk0
  rw [View.read_apply]
  show V c main_v10 _ = V c main_v10 _
  congr 1
  funext a
  apply Fin.ext
  match a with
  | ⟨0, _⟩ => show win0_2.index t 0 * 1 + 1 * u.val = u.val; rw [e0]; omega
  | ⟨1, _⟩ => show win0_2.index t 1 * 64 + 1 * j.val = j.val; rw [e1]; omega
theorem edge_w1_apply (c : Dev nD) (t : Fin cfg0.N) (j k : Fin 64) :
    (iblk0 V c 3 t : Vec Ideal S64x64 .f32) (ix2 j k) = (V c main_arg5 : S64x64.Idx → EReal) (ix2 j k) := by
  obtain ⟨-, -, -, -, -, -, e0, e1, -⟩ := edge_block_indices t
  unfold iblk0
  rw [View.read_apply]
  show V c main_arg5 _ = V c main_arg5 _
  congr 1
  funext a
  apply Fin.ext
  match a with
  | ⟨0, _⟩ => show win0_3.index t 0 * 64 + 1 * j.val = j.val; rw [e0]; omega
  | ⟨1, _⟩ => show win0_3.index t 1 * 64 + 1 * k.val = k.val; rw [e1]; omega
theorem edge_b1_apply (c : Dev nD) (t : Fin cfg0.N) (u : Fin 1) (k : Fin 64) :
    (iblk0 V c 4 t : Vec Ideal S1x64 .f32) (ix2 u k) = (V c main_v11 : S1x64.Idx → EReal) (ix2 u k) := by
  obtain ⟨-, -, -, -, -, -, -, -, e0, e1, -⟩ := edge_block_indices t
  unfold iblk0
  rw [View.read_apply]
  show V c main_v11 _ = V c main_v11 _
  congr 1
  funext a
  apply Fin.ext
  match a with
  | ⟨0, _⟩ => show win0_4.index t 0 * 1 + 1 * u.val = u.val; rw [e0]; omega
  | ⟨1, _⟩ => show win0_4.index t 1 * 64 + 1 * k.val = k.val; rw [e1]; omega
theorem edge_w2_apply (c : Dev nD) (t : Fin cfg0.N) (k : Fin 64) (u : Fin 1) :
    (iblk0 V c 5 t : Vec Ideal S64x1 .f32) (ix2 k u) = (V c main_arg7 : S64x1.Idx → EReal) (ix2 k u) := by
  obtain ⟨-, -, -, -, -, -, -, -, -, -, e0, e1, -⟩ := edge_block_indices t
  unfold iblk0
  rw [View.read_apply]
  show V c main_arg7 _ = V c main_arg7 _
  congr 1
  funext a
  apply Fin.ext
  match a with
  | ⟨0, _⟩ => show win0_5.index t 0 * 64 + 1 * k.val = k.val; rw [e0]; omega
  | ⟨1, _⟩ => show win0_5.index t 1 * 1 + 1 * u.val = u.val; rw [e1]; omega
theorem edge_b2_apply (c : Dev nD) (t : Fin cfg0.N) (u v : Fin 1) :
    (iblk0 V c 6 t : Vec Ideal S1x1 .f32) (ix2 u v) = (V c main_v12 : S1x1.Idx → EReal) (ix2 u v) := by
  obtain ⟨-, -, -, -, -, -, -, -, -, -, -, -, e0, e1, -⟩ := edge_block_indices t
  unfold iblk0
  rw [View.read_apply]
  show V c main_v12 _ = V c main_v12 _
  congr 1
  funext a
  apply Fin.ext
  match a with
  | ⟨0, _⟩ => show win0_6.index t 0 * 1 + 1 * u.val = u.val; rw [e0]; omega
  | ⟨1, _⟩ => show win0_6.index t 1 * 1 + 1 * v.val = v.val; rw [e1]; omega

/-- What point `t` writes back is block `t` of `edgeOut`. -/
theorem edge_flushed_eq (c : Dev nD) (t : Fin cfg0.N) :
    (dat0 (F := Ideal) V c).flushed 7 t = ((cfg0.win 7).blk t).view.read (Elt Ideal) (edgeOut V c) := by
  show (cfg0.win 7).cut (grid0.coords t) ((dat0 V c).after 7 t) = _
  rw [after0_7]
  unfold out0_7
  rw [View.canon_unit_zero zero_offsets]
  simp only [View.ld_unit_zero (S := S16000x18) zero_offsets, View.ld_unit_zero (S := S18x64) zero_offsets,
    View.ld_unit_zero (S := S1x64) zero_offsets, View.ld_unit_zero (S := S64x64) zero_offsets,
    View.ld_unit_zero (S := S64x1) zero_offsets, View.ld_unit_zero (S := S1x1) zero_offsets]
  funext y
  refine (edge_pay_row (iblk0 V c 0 t) (iblk0 V c 1 t) (iblk0 V c 2 t) (iblk0 V c 3 t) (iblk0 V c 4 t) (iblk0 V c 5 t)
    (iblk0 V c 6 t) ((cfg0.win 7).xinj (grid0.coords t) y)).trans ?_
  rw [View.read_apply]
  unfold edgeOut
  simp only [edge_w0_apply, edge_b0_apply, edge_w1_apply, edge_b1_apply, edge_w2_apply, edge_b2_apply]
  refine mlpRow_congr (fun k => ?_) _ _ _ _ _ _
  obtain ⟨-, -, -, -, -, -, -, -, -, -, -, -, -, -, e0, e1⟩ := edge_block_indices t
  refine edge_rows_apply V c t _ k _ ?_
  show win0_7.index t 0 * 16000 + 1 * (y 0).val = t.val * 16000 + (y 0).val
  rw [e0]; omega

/-- An index of the output array lies in point `t`'s block iff each coordinate lies in the block's range. -/
theorem edge_mem_blk (t : Fin cfg0.N) (i : S1600000x1.Idx) :
    i ∈ ((cfg0.win 7).blk t).view.set ↔ ∀ a : Fin 2, win0_7.index t a * S16000x1.size a ≤ (i a).val
      ∧ (i a).val < win0_7.index t a * S16000x1.size a + S16000x1.size a := by
  show i ∈ ((View.whole main_v13).slice (win0_7.rect t)).set ↔ _
  rw [View.set_slice_whole, Rect.mem_set_unit]
  exact Iff.rfl

/-- The output array after the region: row `r` lies in the block of point `r / 16000`, so the 100 blocks cover it. -/
theorem edge_final (c : Dev nD) : (dat0 (F := Ideal) V c).arrAt 7 cfg0.N = edgeOut V c :=
  (dat0 V c).arrAt_eq_of_cover 7 (edgeOut V c) (fun t _ => edge_flushed_eq V c t) fun i => by
    have hi0 : (i 0 : Nat) < 1600000 := (i 0).isLt
    have hi1 : (i 1 : Nat) < 1 := (i 1).isLt
    have hN : cfg0.N = 100 := N_0
    have ht : (i 0 : Nat) / 16000 < cfg0.N := by rw [hN]; omega
    refine ⟨⟨(i 0 : Nat) / 16000, ht⟩, flush0_7 _, ?_⟩
    obtain ⟨-, -, -, -, -, -, -, -, -, -, -, -, -, -, e0, e1⟩ := edge_block_indices ⟨(i 0 : Nat) / 16000, ht⟩
    rw [edge_mem_blk]
    intro a
    match a with
    | ⟨0, _⟩ =>
      show win0_7.index ⟨(i 0 : Nat) / 16000, ht⟩ 0 * 16000 ≤ (i 0 : Nat) ∧ (i 0 : Nat) < win0_7.index ⟨(i 0 : Nat) / 16000, ht⟩ 0 * 16000 + 16000
      rw [e0]; show (i 0 : Nat) / 16000 * 16000 ≤ (i 0 : Nat) ∧ (i 0 : Nat) < (i 0 : Nat) / 16000 * 16000 + 16000; omega
    | ⟨1, _⟩ =>
      show win0_7.index ⟨(i 0 : Nat) / 16000, ht⟩ 1 * 1 ≤ (i 1 : Nat) ∧ (i 1 : Nat) < win0_7.index ⟨(i 0 : Nat) / 16000, ht⟩ 1 * 1 + 1
      rw [e1]; omega

/-- The edge region's output array after the region: entry `(e, 0)` is the perceptron of row `e` of the edge
    feature array (window 0's array, `main_v9`), weights `main_arg3`, `main_arg5`, `main_arg7`, bias rows
    `main_v10`, `main_v11`, `main_v12` (the biases reshaped to one row on the host). -/
theorem final0_apply (c : Dev nD) (e : Fin 1600000) :
    ((dat0 (F := Ideal) V c).arrAt 7 cfg0.N : S1600000x1.Idx → EReal) (ix2 e (0 : Fin 1)) =
      mlpRow (fun k : Fin 18 => (V c main_v9 : S1600000x18.Idx → EReal) (ix2 e k))
        (fun (k : Fin 18) (j : Fin 64) => (V c main_arg3 : S18x64.Idx → EReal) (ix2 k j))
        (fun j : Fin 64 => (V c main_v10 : S1x64.Idx → EReal) (ix2 (0 : Fin 1) j))
        (fun (j k : Fin 64) => (V c main_arg5 : S64x64.Idx → EReal) (ix2 j k))
        (fun k : Fin 64 => (V c main_v11 : S1x64.Idx → EReal) (ix2 (0 : Fin 1) k))
        (fun k : Fin 64 => (V c main_arg7 : S64x1.Idx → EReal) (ix2 k (0 : Fin 1)))
        ((V c main_v12 : S1x1.Idx → EReal) (ix2 (0 : Fin 1) (0 : Fin 1))) := by
  rw [edge_final]
  rfl

/-! ## The node perceptron's three matrix products at an index -/

theorem lhs_node1_0 (i : S5000x64.Idx) (q : dot_S5000x9_S9x64_S5000x64_1_0_0_1_n_n.contr.Idx) :
    (dot_S5000x9_S9x64_S5000x64_1_0_0_1_n_n.lhsIdx i q 0).val = (i 0).val := by
  unfold DotDims.lhsIdx
  rw [dif_neg (show ¬(0 : Fin S5000x9.rank) ∈ dot_S5000x9_S9x64_S5000x64_1_0_0_1_n_n.lhsBatch by decide), dif_pos (show (0 : Fin S5000x9.rank) ∈ dot_S5000x9_S9x64_S5000x64_1_0_0_1_n_n.lhsNonContracting by decide)]
  rfl
theorem lhs_node1_1 (i : S5000x64.Idx) (q : dot_S5000x9_S9x64_S5000x64_1_0_0_1_n_n.contr.Idx) :
    (dot_S5000x9_S9x64_S5000x64_1_0_0_1_n_n.lhsIdx i q 1).val = (q ⟨0, by decide⟩).val :=
  dot_S5000x9_S9x64_S5000x64_1_0_0_1_n_n.lhsIdx_val_of_single rfl i q
theorem rhs_node1_0 (i : S5000x64.Idx) (q : dot_S5000x9_S9x64_S5000x64_1_0_0_1_n_n.contr.Idx) :
    (dot_S5000x9_S9x64_S5000x64_1_0_0_1_n_n.rhsIdx i q 0).val = (q ⟨0, by decide⟩).val :=
  dot_S5000x9_S9x64_S5000x64_1_0_0_1_n_n.rhsIdx_val_of_single rfl i q
theorem rhs_node1_1 (i : S5000x64.Idx) (q : dot_S5000x9_S9x64_S5000x64_1_0_0_1_n_n.contr.Idx) :
    (dot_S5000x9_S9x64_S5000x64_1_0_0_1_n_n.rhsIdx i q 1).val = (i 1).val := by
  unfold DotDims.rhsIdx
  rw [dif_neg (show ¬(1 : Fin S9x64.rank) ∈ dot_S5000x9_S9x64_S5000x64_1_0_0_1_n_n.rhsBatch by decide), dif_pos (show (1 : Fin S9x64.rank) ∈ dot_S5000x9_S9x64_S5000x64_1_0_0_1_n_n.rhsNonContracting by decide)]
  rfl

/-- The first product, rows of 9 features against the 9 × 64 weights, into the zero accumulator: entry `(p, j)` is
    the sum over the 9 features. -/
theorem matmul_node1_apply {φ₁ φ₂ : FTy} (l : FVec Ideal S5000x9 φ₁) (r : FVec Ideal S9x64 φ₂) (p : Fin 5000) (j : Fin 64) :
    matmul dot_S5000x9_S9x64_S5000x64_1_0_0_1_n_n none l r (constant (F := Ideal) S5000x64 .f32 0x00000000#32) (ix2 p j)
      = ∑ k : Fin 9, l (ix2 p k) * r (ix2 k j) := by
  simp only [matmul]
  rw [Ideal.matmul_constant_zero_apply, ← Equiv.sum_comp (contrEquiv1 dot_S5000x9_S9x64_S5000x64_1_0_0_1_n_n 9 rfl rfl).symm]
  refine Finset.sum_congr rfl fun k _ => ?_
  have hk := contrEquiv1_symm_val dot_S5000x9_S9x64_S5000x64_1_0_0_1_n_n 9 rfl rfl k
  have el : dot_S5000x9_S9x64_S5000x64_1_0_0_1_n_n.lhsIdx (ix2 p j) ((contrEquiv1 dot_S5000x9_S9x64_S5000x64_1_0_0_1_n_n 9 rfl rfl).symm k) = ix2 p k := funext fun a => Fin.ext (by
    match a with
    | ⟨0, _⟩ => exact lhs_node1_0 _ _
    | ⟨1, _⟩ => exact (lhs_node1_1 _ _).trans hk)
  have er : dot_S5000x9_S9x64_S5000x64_1_0_0_1_n_n.rhsIdx (ix2 p j) ((contrEquiv1 dot_S5000x9_S9x64_S5000x64_1_0_0_1_n_n 9 rfl rfl).symm k) = ix2 k j := funext fun a => Fin.ext (by
    match a with
    | ⟨0, _⟩ => exact (rhs_node1_0 _ _).trans hk
    | ⟨1, _⟩ => exact rhs_node1_1 _ _)
  rw [el, er]

theorem lhs_node2_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_node2_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_node2_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_node2_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The second product, rows of 64 hidden units against the 64 × 64 weights: entry `(p, j)` is the sum over the 64
    units of the first hidden layer. -/
theorem matmul_node2_apply {φ₁ φ₂ : FTy} (l : FVec Ideal S5000x64 φ₁) (r : FVec Ideal S64x64 φ₂) (p : Fin 5000) (j : Fin 64) :
    matmul dot_S5000x64_S64x64_S5000x64_1_0_0_1_n_n none l r (constant (F := Ideal) S5000x64 .f32 0x00000000#32) (ix2 p j)
      = ∑ k : Fin 64, l (ix2 p k) * r (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact lhs_node2_0 _ _
    | ⟨1, _⟩ => exact (lhs_node2_1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (rhs_node2_0 _ _).trans hk
    | ⟨1, _⟩ => exact rhs_node2_1 _ _)
  rw [el, er]

theorem lhs_node3_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem lhs_node3_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem rhs_node3_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem rhs_node3_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The read-out product, rows of 64 hidden units against the 64 × 1 weights: entry `(p, 0)` is the sum over the 64
    units of the second hidden layer. -/
theorem matmul_node3_apply {φ₁ φ₂ : FTy} (l : FVec Ideal S5000x64 φ₁) (r : FVec Ideal S64x1 φ₂) (p : Fin 5000) (j : Fin 1) :
    matmul dot_S5000x64_S64x1_S5000x1_1_0_0_1_n_n none l r (constant (F := Ideal) S5000x1 .f32 0x00000000#32) (ix2 p j)
      = ∑ k : Fin 64, l (ix2 p k) * r (ix2 k j) := by
  simp only [matmul]
  rw [Ideal.matmul_constant_zero_apply, ← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p j) ((contrEquiv1 dot_S5000x64_S64x1_S5000x1_1_0_0_1_n_n 64 rfl rfl).symm k) = ix2 p k := funext fun a => Fin.ext (by
    match a with
    | ⟨0, _⟩ => exact lhs_node3_0 _ _
    | ⟨1, _⟩ => exact (lhs_node3_1 _ _).trans hk)
  have er : dot_S5000x64_S64x1_S5000x1_1_0_0_1_n_n.rhsIdx (ix2 p j) ((contrEquiv1 dot_S5000x64_S64x1_S5000x1_1_0_0_1_n_n 64 rfl rfl).symm k) = ix2 k j := funext fun a => Fin.ext (by
    match a with
    | ⟨0, _⟩ => exact (rhs_node3_0 _ _).trans hk
    | ⟨1, _⟩ => exact rhs_node3_1 _ _)
  rw [el, er]

/-! ## The node perceptron's stored value at a row -/

/-- Row `p` of the value the body stores is the perceptron of row `p` of the feature block: each product is the finite
    sum over its contracted axis, the narrowing of the operands is the identity, each bias row is read at the column, and
    the zero the hidden layers are compared with is the extended real `0`. -/
theorem node_pay_apply (x0 : Vec Ideal S5000x9 .f32) (x1 : Vec Ideal S9x64 .f32) (x2 : Vec Ideal S1x64 .f32)
    (x3 : Vec Ideal S64x64 .f32) (x4 : Vec Ideal S1x64 .f32) (x5 : Vec Ideal S64x1 .f32) (x6 : Vec Ideal S1x1 .f32) (p : Fin 5000) :
    k1_pay1 (F := Ideal) x0 x1 x2 x3 x4 x5 x6 (ix2 p (0 : Fin 1)) =
      mlpRow (fun k : Fin 9 => x0 (ix2 p k)) (fun (k : Fin 9) (j : Fin 64) => x1 (ix2 k j)) (fun j : Fin 64 => x2 (ix2 (0 : Fin 1) j))
        (fun (j k : Fin 64) => x3 (ix2 j k)) (fun k : Fin 64 => x4 (ix2 (0 : Fin 1) k)) (fun k : Fin 64 => x5 (ix2 k (0 : Fin 1)))
        (x6 (ix2 (0 : Fin 1) (0 : Fin 1))) := by
  have h0 : (Scalar.ofBits (F := Ideal) .f32 0x00000000#32 : Ideal .f32) = (0 : EReal) := Ideal.ofBits_zero_f32
  unfold k1_pay1 mlpRow
  simp only [shapeCast_self]
  rw [addf_apply, matmul_node3_apply, broadcastTo_1b_ab_apply]
  refine congrArg (· + x6 (ix2 (0 : Fin 1) (0 : Fin 1))) (Finset.sum_congr rfl fun k _ => ?_)
  rw [truncf_apply, truncf_apply, maximumf_apply, broadcast_apply, h0, addf_apply, matmul_node2_apply, broadcastTo_1b_ab_apply]
  refine congrArg (fun s => max (s + x4 (ix2 (0 : Fin 1) k)) 0 * x5 (ix2 k (0 : Fin 1))) (Finset.sum_congr rfl fun j _ => ?_)
  rw [truncf_apply, truncf_apply, maximumf_apply, broadcast_apply, addf_apply, matmul_node1_apply, broadcastTo_1b_ab_apply]
  refine congrArg (fun s => max (s + x2 (ix2 (0 : Fin 1) j)) 0 * x3 (ix2 j k)) (Finset.sum_congr rfl fun i _ => ?_)
  rw [truncf_apply, truncf_apply]

/-! ## From the node blocks to the node output array -/

/-- The value the body stores, at any index of the output block: the perceptron of that row of the feature block. -/
theorem node_pay_row (x0 : Vec Ideal S5000x9 .f32) (x1 : Vec Ideal S9x64 .f32) (x2 : Vec Ideal S1x64 .f32)
    (x3 : Vec Ideal S64x64 .f32) (x4 : Vec Ideal S1x64 .f32) (x5 : Vec Ideal S64x1 .f32) (x6 : Vec Ideal S1x1 .f32) (z : S5000x1.Idx) :
    k1_pay1 (F := Ideal) x0 x1 x2 x3 x4 x5 x6 z =
      mlpRow (fun k : Fin 9 => x0 (ix2 (⟨(z 0).val, (z 0).isLt⟩ : Fin 5000) k)) (fun (k : Fin 9) (j : Fin 64) => x1 (ix2 k j))
        (fun j : Fin 64 => x2 (ix2 (0 : Fin 1) j)) (fun (j k : Fin 64) => x3 (ix2 j k)) (fun k : Fin 64 => x4 (ix2 (0 : Fin 1) k))
        (fun k : Fin 64 => x5 (ix2 k (0 : Fin 1))) (x6 (ix2 (0 : Fin 1) (0 : Fin 1))) := by
  obtain ⟨p, q, rfl⟩ : ∃ (p : Fin 5000) (q : Fin 1), z = ix2 p q := ⟨z 0, z 1, eq_ix2 z⟩
  obtain rfl : q = 0 := Fin.ext (by omega)
  exact node_pay_apply x0 x1 x2 x3 x4 x5 x6 p

/-- The block index maps over the grid: the feature window and the output window walk the row tiles, the six weight
    and bias windows stay at their one block. -/
theorem node_block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The node output array as ONE function of the arrays the region finds: row by row the perceptron. -/
def nodeOut (c : Dev nD) : S100000x1.Idx → EReal := fun i =>
  mlpRow (fun k : Fin 9 => (V c main_v24 : S100000x9.Idx → EReal) (ix2 (⟨(i 0).val, (i 0).isLt⟩ : Fin 100000) k))
    (fun (k : Fin 9) (j : Fin 64) => (V c main_arg9 : S9x64.Idx → EReal) (ix2 k j))
    (fun j : Fin 64 => (V c main_v25 : S1x64.Idx → EReal) (ix2 (0 : Fin 1) j))
    (fun (j k : Fin 64) => (V c main_arg11 : S64x64.Idx → EReal) (ix2 j k))
    (fun k : Fin 64 => (V c main_v26 : S1x64.Idx → EReal) (ix2 (0 : Fin 1) k))
    (fun k : Fin 64 => (V c main_arg13 : S64x1.Idx → EReal) (ix2 k (0 : Fin 1)))
    ((V c main_v27 : S1x1.Idx → EReal) (ix2 (0 : Fin 1) (0 : Fin 1)))

/-- The feature block at point `t` is rows `5000 t … 5000 t + 4999` of the feature array. -/
theorem node_rows_apply (c : Dev nD) (t : Fin cfg1.N) (p : Fin 5000) (k : Fin 9) (r : Fin 100000)
    (hr : r.val = t.val * 5000 + p.val) :
    (iblk1 V c 0 t : Vec Ideal S5000x9 .f32) (ix2 p k) = (V c main_v24 : S100000x9.Idx → EReal) (ix2 r k) := by
  obtain ⟨e0, e1, -⟩ := node_block_indices t
  unfold iblk1
  rw [View.read_apply]
  show V c main_v24 _ = V c main_v24 _
  congr 1
  funext a
  apply Fin.ext
  match a with
  | ⟨0, _⟩ => show win1_0.index t 0 * 5000 + 1 * p.val = r.val; rw [e0, hr]; omega
  | ⟨1, _⟩ => show win1_0.index t 1 * 9 + 1 * k.val = k.val; rw [e1]; omega

/-- Each weight and bias block is its whole array, at every point. -/
theorem node_w0_apply (c : Dev nD) (t : Fin cfg1.N) (k : Fin 9) (j : Fin 64) :
    (iblk1 V c 1 t : Vec Ideal S9x64 .f32) (ix2 k j) = (V c main_arg9 : S9x64.Idx → EReal) (ix2 k j) := by
  obtain ⟨-, -, e0, e1, -⟩ := node_block_indices t
  unfold iblk1
  rw [View.read_apply]
  show V c main_arg9 _ = V c main_arg9 _
  congr 1
  funext a
  apply Fin.ext
  match a with
  | ⟨0, _⟩ => show win1_1.index t 0 * 9 + 1 * k.val = k.val; rw [e0]; omega
  | ⟨1, _⟩ => show win1_1.index t 1 * 64 + 1 * j.val = j.val; rw [e1]; omega
theorem node_b0_apply (c : Dev nD) (t : Fin cfg1.N) (u : Fin 1) (j : Fin 64) :
    (iblk1 V c 2 t : Vec Ideal S1x64 .f32) (ix2 u j) = (V c main_v25 : S1x64.Idx → EReal) (ix2 u j) := by
  obtain ⟨-, -, -, -, e0, e1, -⟩ := node_block_indices t
  unfold iblk1
  rw [View.read_apply]
  show V c main_v25 _ = V c main_v25 _
  congr 1
  funext a
  apply Fin.ext
  match a with
  | ⟨0, _⟩ => show win1_2.index t 0 * 1 + 1 * u.val = u.val; rw [e0]; omega
  | ⟨1, _⟩ => show win1_2.index t 1 * 64 + 1 * j.val = j.val; rw [e1]; omega
theorem node_w1_apply (c : Dev nD) (t : Fin cfg1.N) (j k : Fin 64) :
    (iblk1 V c 3 t : Vec Ideal S64x64 .f32) (ix2 j k) = (V c main_arg11 : S64x64.Idx → EReal) (ix2 j k) := by
  obtain ⟨-, -, -, -, -, -, e0, e1, -⟩ := node_block_indices t
  unfold iblk1
  rw [View.read_apply]
  show V c main_arg11 _ = V c main_arg11 _
  congr 1
  funext a
  apply Fin.ext
  match a with
  | ⟨0, _⟩ => show win1_3.index t 0 * 64 + 1 * j.val = j.val; rw [e0]; omega
  | ⟨1, _⟩ => show win1_3.index t 1 * 64 + 1 * k.val = k.val; rw [e1]; omega
theorem node_b1_apply (c : Dev nD) (t : Fin cfg1.N) (u : Fin 1) (k : Fin 64) :
    (iblk1 V c 4 t : Vec Ideal S1x64 .f32) (ix2 u k) = (V c main_v26 : S1x64.Idx → EReal) (ix2 u k) := by
  obtain ⟨-, -, -, -, -, -, -, -, e0, e1, -⟩ := node_block_indices t
  unfold iblk1
  rw [View.read_apply]
  show V c main_v26 _ = V c main_v26 _
  congr 1
  funext a
  apply Fin.ext
  match a with
  | ⟨0, _⟩ => show win1_4.index t 0 * 1 + 1 * u.val = u.val; rw [e0]; omega
  | ⟨1, _⟩ => show win1_4.index t 1 * 64 + 1 * k.val = k.val; rw [e1]; omega
theorem node_w2_apply (c : Dev nD) (t : Fin cfg1.N) (k : Fin 64) (u : Fin 1) :
    (iblk1 V c 5 t : Vec Ideal S64x1 .f32) (ix2 k u) = (V c main_arg13 : S64x1.Idx → EReal) (ix2 k u) := by
  obtain ⟨-, -, -, -, -, -, -, -, -, -, e0, e1, -⟩ := node_block_indices t
  unfold iblk1
  rw [View.read_apply]
  show V c main_arg13 _ = V c main_arg13 _
  congr 1
  funext a
  apply Fin.ext
  match a with
  | ⟨0, _⟩ => show win1_5.index t 0 * 64 + 1 * k.val = k.val; rw [e0]; omega
  | ⟨1, _⟩ => show win1_5.index t 1 * 1 + 1 * u.val = u.val; rw [e1]; omega
theorem node_b2_apply (c : Dev nD) (t : Fin cfg1.N) (u v : Fin 1) :
    (iblk1 V c 6 t : Vec Ideal S1x1 .f32) (ix2 u v) = (V c main_v27 : S1x1.Idx → EReal) (ix2 u v) := by
  obtain ⟨-, -, -, -, -, -, -, -, -, -, -, -, e0, e1, -⟩ := node_block_indices t
  unfold iblk1
  rw [View.read_apply]
  show V c main_v27 _ = V c main_v27 _
  congr 1
  funext a
  apply Fin.ext
  match a with
  | ⟨0, _⟩ => show win1_6.index t 0 * 1 + 1 * u.val = u.val; rw [e0]; omega
  | ⟨1, _⟩ => show win1_6.index t 1 * 1 + 1 * v.val = v.val; rw [e1]; omega

/-- What point `t` writes back is block `t` of `nodeOut`. -/
theorem node_flushed_eq (c : Dev nD) (t : Fin cfg1.N) :
    (dat1 (F := Ideal) V c).flushed 7 t = ((cfg1.win 7).blk t).view.read (Elt Ideal) (nodeOut V c) := by
  show (cfg1.win 7).cut (grid1.coords t) ((dat1 V c).after 7 t) = _
  rw [after1_7]
  unfold out1_7
  rw [View.canon_unit_zero zero_offsets]
  simp only [View.ld_unit_zero (S := S5000x9) zero_offsets, View.ld_unit_zero (S := S9x64) zero_offsets,
    View.ld_unit_zero (S := S1x64) zero_offsets, View.ld_unit_zero (S := S64x64) zero_offsets,
    View.ld_unit_zero (S := S64x1) zero_offsets, View.ld_unit_zero (S := S1x1) zero_offsets]
  funext y
  refine (node_pay_row (iblk1 V c 0 t) (iblk1 V c 1 t) (iblk1 V c 2 t) (iblk1 V c 3 t) (iblk1 V c 4 t) (iblk1 V c 5 t)
    (iblk1 V c 6 t) ((cfg1.win 7).xinj (grid1.coords t) y)).trans ?_
  rw [View.read_apply]
  unfold nodeOut
  simp only [node_w0_apply, node_b0_apply, node_w1_apply, node_b1_apply, node_w2_apply, node_b2_apply]
  refine mlpRow_congr (fun k => ?_) _ _ _ _ _ _
  obtain ⟨-, -, -, -, -, -, -, -, -, -, -, -, -, -, e0, e1⟩ := node_block_indices t
  refine node_rows_apply V c t _ k _ ?_
  show win1_7.index t 0 * 5000 + 1 * (y 0).val = t.val * 5000 + (y 0).val
  rw [e0]; omega

/-- An index of the output array lies in point `t`'s block iff each coordinate lies in the block's range. -/
theorem node_mem_blk (t : Fin cfg1.N) (i : S100000x1.Idx) :
    i ∈ ((cfg1.win 7).blk t).view.set ↔ ∀ a : Fin 2, win1_7.index t a * S5000x1.size a ≤ (i a).val
      ∧ (i a).val < win1_7.index t a * S5000x1.size a + S5000x1.size a := by
  show i ∈ ((View.whole main_v28).slice (win1_7.rect t)).set ↔ _
  rw [View.set_slice_whole, Rect.mem_set_unit]
  exact Iff.rfl

/-- The output array after the region: row `r` lies in the block of point `r / 5000`, so the 20 blocks cover it. -/
theorem node_final (c : Dev nD) : (dat1 (F := Ideal) V c).arrAt 7 cfg1.N = nodeOut V c :=
  (dat1 V c).arrAt_eq_of_cover 7 (nodeOut V c) (fun t _ => node_flushed_eq V c t) fun i => by
    have hi0 : (i 0 : Nat) < 100000 := (i 0).isLt
    have hi1 : (i 1 : Nat) < 1 := (i 1).isLt
    have hN : cfg1.N = 20 := N_1
    have ht : (i 0 : Nat) / 5000 < cfg1.N := by rw [hN]; omega
    refine ⟨⟨(i 0 : Nat) / 5000, ht⟩, flush1_7 _, ?_⟩
    obtain ⟨-, -, -, -, -, -, -, -, -, -, -, -, -, -, e0, e1⟩ := node_block_indices ⟨(i 0 : Nat) / 5000, ht⟩
    rw [node_mem_blk]
    intro a
    match a with
    | ⟨0, _⟩ =>
      show win1_7.index ⟨(i 0 : Nat) / 5000, ht⟩ 0 * 5000 ≤ (i 0 : Nat) ∧ (i 0 : Nat) < win1_7.index ⟨(i 0 : Nat) / 5000, ht⟩ 0 * 5000 + 5000
      rw [e0]; show (i 0 : Nat) / 5000 * 5000 ≤ (i 0 : Nat) ∧ (i 0 : Nat) < (i 0 : Nat) / 5000 * 5000 + 5000; omega
    | ⟨1, _⟩ =>
      show win1_7.index ⟨(i 0 : Nat) / 5000, ht⟩ 1 * 1 ≤ (i 1 : Nat) ∧ (i 1 : Nat) < win1_7.index ⟨(i 0 : Nat) / 5000, ht⟩ 1 * 1 + 1
      rw [e1]; omega

/-- The node region's output array after the region: entry `(n, 0)` is the perceptron of row `n` of the node
    feature array (window 0's array, `main_v24`), weights `main_arg9`, `main_arg11`, `main_arg13`, bias rows
    `main_v25`, `main_v26`, `main_v27`. -/
theorem final1_apply (c : Dev nD) (n : Fin 100000) :
    ((dat1 (F := Ideal) V c).arrAt 7 cfg1.N : S100000x1.Idx → EReal) (ix2 n (0 : Fin 1)) =
      mlpRow (fun k : Fin 9 => (V c main_v24 : S100000x9.Idx → EReal) (ix2 n k))
        (fun (k : Fin 9) (j : Fin 64) => (V c main_arg9 : S9x64.Idx → EReal) (ix2 k j))
        (fun j : Fin 64 => (V c main_v25 : S1x64.Idx → EReal) (ix2 (0 : Fin 1) j))
        (fun (j k : Fin 64) => (V c main_arg11 : S64x64.Idx → EReal) (ix2 j k))
        (fun k : Fin 64 => (V c main_v26 : S1x64.Idx → EReal) (ix2 (0 : Fin 1) k))
        (fun k : Fin 64 => (V c main_arg13 : S64x1.Idx → EReal) (ix2 k (0 : Fin 1)))
        ((V c main_v27 : S1x1.Idx → EReal) (ix2 (0 : Fin 1) (0 : Fin 1))) := by
  rw [node_final]
  rfl

end Cert.KernelIdeal.Hand

end
-- ==== Proof.KiHost.lean ====
/-
  What the host operations of the idealized kernel program write, stretch by stretch, as pure terms of what the buffers
  held before the stretch.  Between its two perceptron regions the program only re-lays data: it splits the edge list
  into its source and target rows, gathers node features and positions at those rows (a gather guarded by an in-range
  mask that substitutes a fill value at out-of-range rows), joins the gathered pieces into the edge-feature array,
  reshapes each bias to one row; after the first region it adds the edge messages up per target node, divides by the
  clamped in-degree and joins the quotient to the node features; after the second region it adds the last feature column.
-/
import proofs.«418762_j75462575390928_2_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-! ## The pure terms -/

/-- Row `r` of the edge list (0: sources, 1: targets) as a vector of node numbers. -/
abbrev srcRow (e : IVec S2x1600000 32) : IVec S1600000 32 :=
  shapeCast S1600000 (extractStridedSlice S1x1600000 ![0, 0] e slices_S2x1600000_S1x1600000_0_0) shapeCasts_S1x1600000_S1600000
abbrev dstRow (e : IVec S2x1600000 32) : IVec S1600000 32 :=
  shapeCast S1600000 (extractStridedSlice S1x1600000 ![1, 0] e slices_S2x1600000_S1x1600000_1_0) shapeCasts_S1x1600000_S1600000

/-- A vector of node numbers with the negative ones moved up by the node count, as a column of gather indices. -/
abbrev wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- The guard of the gather: per row, whether the index lies in `[0, 99999]`. -/
abbrev inRange (ix : IVec S1600000x1 32) : IVec S1600000 1 :=
  Host.reduce IntOp.andi
    (andi (cmpi .sge ix (broadcastInDim S1600000x1 ![] bcast_S_S1600000x1 (constantI S_ 32 0#32)))
      (cmpi .sle ix (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The guarded gather of eight-wide rows. -/
abbrev take8 (x : FVec F S100000x8 .f32) (v : IVec S1600000 32) : FVec F S1600000x8 .f32 :=
  select (broadcastInDim S1600000x8 ![0] bcast_S1600000_S1600000x8_0 (inRange (wrapCol v)))
    (Host.gather gather_S100000x8_S1600000x1_S1600000x8_1_0_n_n_0_1_18 x (wrapCol v))
    (broadcastInDim S1600000x8 ![] bcast_S_S1600000x8 (constant S_ .f32 0x7FC00000#32))

/-- The guarded gather of two-wide rows. -/
abbrev take2 (x : FVec F S100000x2 .f32) (v : IVec S1600000 32) : FVec F S1600000x2 .f32 :=
  select (broadcastInDim S1600000x2 ![0] bcast_S1600000_S1600000x2_0 (inRange (wrapCol v)))
    (Host.gather gather_S100000x2_S1600000x1_S1600000x2_1_0_n_n_0_1_12 x (wrapCol v))
    (broadcastInDim S1600000x2 ![] bcast_S_S1600000x2 (constant S_ .f32 0x7FC00000#32))

variable (m : (ℓ : Loc nD τ sig) → Buf (Elt F) ℓ) (outs : Outs (F := F))

-- the equations below never look inside a gather, a reduction or a scatter: keep them folded while terms are compared
attribute [local irreducible] Host.reduce Host.gather Host.scatterAdd

/-- Transporting contents to a typed reference's buffer type and back is the identity. -/
theorem ofBuf_toBuf {T : BufTy} (x : TRef sig T) (v : T.Contents (Elt F)) : x.ofBuf (x.toBuf v) = v := by
  unfold TRef.ofBuf TRef.toBuf
  simp only [cast_cast, cast_eq]

/-! ## Stretch 0: the two rows of the edge list -/

theorem V1_src (c : Dev nD) : V1 m c main_v1 = srcRow (V0 m c main_arg2) := by
  show StableHlo.after hostOps0 (V0 m c) (Proc.devRef .tc main_v1) = _
  generalize V0 m c = W
  after_results
  rfl

theorem V1_dst (c : Dev nD) : V1 m c main_v3 = dstRow (V0 m c main_arg2) := by
  show StableHlo.after hostOps0 (V0 m c) (Proc.devRef .tc main_v3) = _
  generalize V0 m c = W
  after_results
  rfl

/-! ## Stretches 1 to 4: the four guarded gathers -/

theorem V2_xdst (c : Dev nD) : V2 m c main_v4 = take8 (V1 m c main_arg0) (V1 m c main_v3) := by
  show StableHlo.after hostOps0_1 (V1 m c) (Proc.devRef .tc main_v4) = _
  generalize V1 m c = W
  after_results_simp
  simp only [ofBuf_toBuf]
  rfl

theorem V3_xsrc (c : Dev nD) : V3 m c main_v5 = take8 (V2 m c main_arg0) (V2 m c main_v1) := by
  show StableHlo.after hostOps0_2 (V2 m c) (Proc.devRef .tc main_v5) = _
  generalize V2 m c = W
  after_results_simp
  simp only [ofBuf_toBuf]
  rfl

theorem V4_psrc (c : Dev nD) : V4 m c main_v6 = take2 (V3 m c main_arg1) (V3 m c main_v1) := by
  show StableHlo.after hostOps0_3 (V3 m c) (Proc.devRef .tc main_v6) = _
  generalize V3 m c = W
  after_results_simp
  simp only [ofBuf_toBuf]
  rfl

theorem V5_pdst (c : Dev nD) : V5 m c main_v7 = take2 (V4 m c main_arg1) (V4 m c main_v3) := by
  show StableHlo.after hostOps0_4 (V4 m c) (Proc.devRef .tc main_v7) = _
  generalize V4 m c = W
  after_results_simp
  simp only [ofBuf_toBuf]
  rfl

/-! ## Stretch 5: the edge features joined, the biases as rows -/

theorem V6_edgeIn (c : Dev nD) : V6 m c main_v9 =
    concatenate S1600000x18 1 [⟨S1600000x8, V5 m c main_v4⟩, ⟨S1600000x8, V5 m c main_v5⟩,
      ⟨S1600000x2, subf (V5 m c main_v6) (V5 m c main_v7)⟩] concatenates_S1600000x8_S1600000x8_S1600000x2_S1600000x18_d1 := by
  show StableHlo.after hostOps0_5 (V5 m c) (Proc.devRef .tc main_v9) = _
  generalize V5 m c = W
  after_results
  show concatenate S1600000x18 1
      [⟨S1600000x8, (StableHlo.binary main_v6 main_v7 main_v8 (subf : (⟨S1600000x2, .f32⟩ : BufTy).Contents (Elt F) → (⟨S1600000x2, .f32⟩ : BufTy).Contents (Elt F) → (⟨S1600000x2, .f32⟩ : BufTy).Contents (Elt F))).result W (Proc.devRef .tc main_v4)⟩,
       ⟨S1600000x8, (StableHlo.binary main_v6 main_v7 main_v8 (subf : (⟨S1600000x2, .f32⟩ : BufTy).Contents (Elt F) → (⟨S1600000x2, .f32⟩ : BufTy).Contents (Elt F) → (⟨S1600000x2, .f32⟩ : BufTy).Contents (Elt F))).result W (Proc.devRef .tc main_v5)⟩,
       ⟨S1600000x2, (StableHlo.binary main_v6 main_v7 main_v8 (subf : (⟨S1600000x2, .f32⟩ : BufTy).Contents (Elt F) → (⟨S1600000x2, .f32⟩ : BufTy).Contents (Elt F) → (⟨S1600000x2, .f32⟩ : BufTy).Contents (Elt F))).result W (Proc.devRef .tc main_v8)⟩]
      concatenates_S1600000x8_S1600000x8_S1600000x2_S1600000x18_d1 = _
  rw [binary_result_ne (r := main_v4), binary_result_ne (r := main_v5), binary_result]
  · decide
  · decide

theorem V6_b0 (c : Dev nD) : V6 m c main_v10 = shapeCast S1x64 (V5 m c main_arg4) shapeCasts_S64_S1x64 := by
  show StableHlo.after hostOps0_5 (V5 m c) (Proc.devRef .tc main_v10) = _
  generalize V5 m c = W
  after_results
  rfl

theorem V6_b1 (c : Dev nD) : V6 m c main_v11 = shapeCast S1x64 (V5 m c main_arg6) shapeCasts_S64_S1x64 := by
  show StableHlo.after hostOps0_5 (V5 m c) (Proc.devRef .tc main_v11) = _
  generalize V5 m c = W
  after_results
  rfl

theorem V6_b2 (c : Dev nD) : V6 m c main_v12 = shapeCast S1x1 (V5 m c main_arg8) shapeCasts_S1_S1x1 := by
  show StableHlo.after hostOps0_5 (V5 m c) (Proc.devRef .tc main_v12) = _
  generalize V5 m c = W
  after_results
  rfl

/-! ## Stretch 7: the messages averaged per target node and joined to the node features -/

/-- The mean aggregation as one function of the node features, the target row and the messages. -/
abbrev nodeIn (x : FVec F S100000x8 .f32) (d : IVec S1600000 32) (msg : FVec F S1600000x1 .f32) : FVec F S100000x9 .f32 :=
  concatenate S100000x9 1 [⟨S100000x8, x⟩, ⟨S100000x1,
    Host.divf
      (Host.scatterAdd scatter_S100000x1_S1600000x1_S1600000x1_1_0_0_1
        (broadcastInDim S100000x1 ![] bcast_S_S100000x1 (constant S_ .f32 0x00000000#32))
        (broadcastInDim S1600000x1 ![0] bcast_S1600000_S1600000x1_0 d) msg)
      (maximumf
        (Host.scatterAdd scatter_S100000x1_S1600000x1_S1600000x1_1_0_0_1
          (broadcastInDim S100000x1 ![] bcast_S_S100000x1 (constant S_ .f32 0x00000000#32))
          (broadcastInDim S1600000x1 ![0] bcast_S1600000_S1600000x1_0 d)
          (broadcastInDim S1600000x1 ![] bcast_S_S1600000x1 (constant S_ .f32 0x3F800000#32)))
        (broadcastInDim S100000x1 ![] bcast_S_S100000x1 (constant S_ .f32 0x3F800000#32)))⟩]
    concatenates_S100000x8_S100000x1_S100000x9_d1

set_option maxHeartbeats 1000000 in
theorem V8_nodeIn (c : Dev nD) : V8 m outs c main_v24 =
    nodeIn (V7 m outs c main_arg0) (V7 m outs c main_v3) (V7 m outs c main_v13) := by
  show StableHlo.after hostOps1 (V7 m outs c) (Proc.devRef .tc main_v24) = _
  generalize V7 m outs c = W
  after_results_simp
  rfl

theorem V8_b0 (c : Dev nD) : V8 m outs c main_v25 = shapeCast S1x64 (V7 m outs c main_arg10) shapeCasts_S64_S1x64 := by
  show StableHlo.after hostOps1 (V7 m outs c) (Proc.devRef .tc main_v25) = _
  generalize V7 m outs c = W
  after_results_simp
  rfl

theorem V8_b1 (c : Dev nD) : V8 m outs c main_v26 = shapeCast S1x64 (V7 m outs c main_arg12) shapeCasts_S64_S1x64 := by
  show StableHlo.after hostOps1 (V7 m outs c) (Proc.devRef .tc main_v26) = _
  generalize V7 m outs c = W
  after_results_simp
  rfl

theorem V8_b2 (c : Dev nD) : V8 m outs c main_v27 = shapeCast S1x1 (V7 m outs c main_arg14) shapeCasts_S1_S1x1 := by
  show StableHlo.after hostOps1 (V7 m outs c) (Proc.devRef .tc main_v27) = _
  generalize V7 m outs c = W
  after_results_simp
  rfl

/-! ## Stretch 9: the residual -/

theorem V10_out (c : Dev nD) : V10 m outs c main_v30 =
    addf (extractStridedSlice S100000x1 ![0, 7] (V9 m outs c main_arg0) slices_S100000x8_S100000x1_0_7) (V9 m outs c main_v28) := by
  show StableHlo.after hostOps2 (V9 m outs c) (Proc.devRef .tc main_v30) = _
  generalize V9 m outs c = W
  after_results

end Cert.KernelIdeal.Hand

end
-- ==== Proof.KiChain.lean ====
/-
  The host values of the idealized kernel program as functions of the launch contents alone: each buffer read back
  through the stretches that do not write it, down to the stretch that does.  Nothing here looks inside an operation:
  it is bookkeeping of which stretch writes which buffer.
-/
import proofs.«418762_j75462575390928_2_alg».proof.Proof.KiHost

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (outs : Outs (F := F))

/-- A buffer none of the six stretches before the first region writes is, at the region's entry, as launched. -/
theorem V6_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) : V6 m c r = V0 m c r :=
  (V6_of m c r h5).trans <| (V5_of m c r h4).trans <| (V4_of m c r h3).trans <| (V3_of m c r h2).trans <|
    (V2_of m c r h1).trans (V1_of m c r h0)

/-- A buffer the first region and the stretch after it do not write is, at the second region's entry, as at the first's. -/
theorem V8_keep (c : Dev nD) (r : Ref sig .tc) (h7 : r ∉ ([main_v13] : List (Ref sig .tc))) (h8 : r ∉ hostOps1_W) :
    V8 m outs c r = V6 m c r :=
  (V8_of m outs c r h8).trans (V7_of m outs c r h7)

/-! ## The two rows of the edge list, wherever they are read -/

theorem src_at2 (c : Dev nD) : V2 m c main_v1 = srcRow (V0 m c main_arg2) :=
  (V2_of m c main_v1 (by decide)).trans (V1_src m c)
theorem src_at3 (c : Dev nD) : V3 m c main_v1 = srcRow (V0 m c main_arg2) :=
  (V3_of m c main_v1 (by decide)).trans (src_at2 m c)
theorem dst_at4 (c : Dev nD) : V4 m c main_v3 = dstRow (V0 m c main_arg2) :=
  (V4_of m c main_v3 (by decide)).trans <| (V3_of m c main_v3 (by decide)).trans <| (V2_of m c main_v3 (by decide)).trans (V1_dst m c)
theorem dst_at7 (c : Dev nD) : V7 m outs c main_v3 = dstRow (V0 m c main_arg2) :=
  (V7_of m outs c main_v3 (by decide)).trans <| (V6_of m c main_v3 (by decide)).trans <| (V5_of m c main_v3 (by decide)).trans (dst_at4 m c)

/-! ## The four gathered pieces at the join -/

theorem xdst_at5 (c : Dev nD) : V5 m c main_v4 = take8 (V0 m c main_arg0) (dstRow (V0 m c main_arg2)) := by
  refine (V5_of m c main_v4 (by decide)).trans <| (V4_of m c main_v4 (by decide)).trans <| (V3_of m c main_v4 (by decide)).trans ?_
  rw [V2_xdst, V1_dst, V1_of m c main_arg0 (by decide)]

theorem xsrc_at5 (c : Dev nD) : V5 m c main_v5 = take8 (V0 m c main_arg0) (srcRow (V0 m c main_arg2)) := by
  refine (V5_of m c main_v5 (by decide)).trans <| (V4_of m c main_v5 (by decide)).trans ?_
  rw [V3_xsrc, src_at2, V2_of m c main_arg0 (by decide), V1_of m c main_arg0 (by decide)]

theorem psrc_at5 (c : Dev nD) : V5 m c main_v6 = take2 (V0 m c main_arg1) (srcRow (V0 m c main_arg2)) := by
  refine (V5_of m c main_v6 (by decide)).trans ?_
  rw [V4_psrc, src_at3, V3_of m c main_arg1 (by decide), V2_of m c main_arg1 (by decide), V1_of m c main_arg1 (by decide)]

theorem pdst_at5 (c : Dev nD) : V5 m c main_v7 = take2 (V0 m c main_arg1) (dstRow (V0 m c main_arg2)) := by
  rw [V5_pdst, dst_at4, V4_of m c main_arg1 (by decide), V3_of m c main_arg1 (by decide), V2_of m c main_arg1 (by decide),
    V1_of m c main_arg1 (by decide)]

/-- The edge features at the first region's entry, from the launch contents. -/
theorem edgeIn_eq (c : Dev nD) : V6 m c main_v9 =
    concatenate S1600000x18 1 [⟨S1600000x8, take8 (V0 m c main_arg0) (dstRow (V0 m c main_arg2))⟩,
      ⟨S1600000x8, take8 (V0 m c main_arg0) (srcRow (V0 m c main_arg2))⟩,
      ⟨S1600000x2, subf (take2 (V0 m c main_arg1) (srcRow (V0 m c main_arg2))) (take2 (V0 m c main_arg1) (dstRow (V0 m c main_arg2)))⟩]
      concatenates_S1600000x8_S1600000x8_S1600000x2_S1600000x18_d1 := by
  rw [V6_edgeIn, xdst_at5, xsrc_at5, psrc_at5, pdst_at5]

/-- The node features at the second region's entry, from the launch contents and the first region's output. -/
theorem nodeIn_eq (c : Dev nD) : V8 m outs c main_v24 =
    nodeIn (V0 m c main_arg0) (dstRow (V0 m c main_arg2)) (outs 7 main_v13 c) := by
  rw [V8_nodeIn, dst_at7, V7_of m outs c main_arg0 (by decide),
    V6_keep m c main_arg0 (by decide) (by decide) (by decide) (by decide) (by decide) (by decide)]
  congr 1

/-- The result, from the launch contents and the second region's output. -/
theorem out_eq (c : Dev nD) : V10 m outs c main_v30 =
    addf (extractStridedSlice S100000x1 ![0, 7] (V0 m c main_arg0) slices_S100000x8_S100000x1_0_7) (outs 9 main_v28 c) := by
  rw [V10_out, V9_of m outs c main_arg0 (by decide), V8_keep m outs c main_arg0 (by decide) (by decide),
    V6_keep m c main_arg0 (by decide) (by decide) (by decide) (by decide) (by decide) (by decide)]
  congr 1

end Cert.KernelIdeal.Hand

end
-- ==== Proof.LibReduceAnd.lean ====
/-
  A reduction by `and` of one-bit words that are all 1, from an initial 1, is 1: the converse of the library's
  "a reduction by `and` that is 1 met only 1s" (Lib/ReduceAll.lean).  A GENERAL lemma: it mentions no program.
-/
import Idealize.ShloMosaic.Lib.ReduceAll

namespace Idealize.ShloMosaic

namespace IntOp

/-- A left fold by `and` over one-bit words, from 1, over words that are all 1, is 1. -/
theorem foldl_andi_of_all {ι : Type} (f : ι → BitVec 1) :
    ∀ (l : List ι) (init : BitVec 1), init = 1#1 → (∀ n ∈ l, f n = 1#1) → l.foldl (fun r n => andi r (f n)) init = 1#1
  | [], _, hi, _ => hi
  | a :: l, init, hi, h => by
    refine foldl_andi_of_all f l _ ?_ (fun n hn => h n (List.mem_cons_of_mem _ hn))
    exact andi_eq_one.2 ⟨hi, h a (List.mem_cons_self ..)⟩

end IntOp

namespace Host

variable {s t u : Shape} {axes : List (Fin s.rank)}

/-- A `stablehlo.reduce` by `and` from an initial 1 over an operand whose every element is 1 is 1 at every index. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact IntOp.foldl_andi_of_all x _ _ hinit (fun n _ => hx n)

end Host

end Idealize.ShloMosaic
-- ==== Proof.KiMask.lean ====
/-
  Edge endpoints in range make the gather's guard constant.  If every entry `w` of a vector of node numbers satisfies
  `0 ≤ w < 100000` (as signed 32-bit words), then the negative-index wrap leaves it unchanged, every wrapped index
  passes the test `0 ≤ · ≤ 99999`, the per-row `and` of the tests is 1 everywhere, and a `select` on that guard is
  its first branch: the guarded gather is the plain gather.
-/
import proofs.«418762_j75462575390928_2_alg».proof.Proof.KiHost
import proofs.«418762_j75462575390928_2_alg».proof.Proof.LibReduceAnd
import Idealize.ShloMosaic.Lib.Pipeline.Value
import Idealize.ShloMosaic.Lib.ValueIdx
import Idealize.ShloMosaic.Lib.StableHlo.Predicate

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- A word in `[0, 100000)` is not negative and is at most 99999. -/
theorem in_range_word (w : BitVec 32) (h0 : IntOp.cmpi .sge w 0#32 = 1#1) (h1 : IntOp.cmpi .slt w 100000#32 = 1#1) :
    IntOp.cmpi .slt w 0#32 = 0#1 ∧ IntOp.cmpi .sle w 99999#32 = 1#1 := by
  unfold IntOp.cmpi at h0 h1 ⊢
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  have e2 : (99999#32 : BitVec 32).toInt = 99999 := by decide
  rw [e0] at h0; rw [e1] at h1
  constructor
  · have hlt : w.slt 0#32 = false := by
      simp only [BitVec.slt, e0]; exact decide_eq_false (by omega)
    show BitVec.ofBool (w.slt 0#32) = 0#1
    rw [hlt]; rfl
  · have hle : w.sle 99999#32 = true := by
      simp only [BitVec.sle, e2]; exact decide_eq_true (by omega)
    show BitVec.ofBool (w.sle 99999#32) = 1#1
    rw [hle]; rfl

/-- The in-range hypothesis on a vector of node numbers, as the two word tests the precondition states. -/
def InRange (v : IVec S1600000 32) : Prop :=
  ∀ i : S1600000.Idx, IntOp.cmpi .sge (v i) 0#32 = 1#1 ∧ IntOp.cmpi .slt (v i) 100000#32 = 1#1

/-- In range, the wrapped index column holds the vector's own entries. -/
theorem wrapCol_apply (v : IVec S1600000 32) (hv : InRange v) (j : S1600000x1.Idx) :
    wrapCol v j = v (fun a => match a with | ⟨0, _⟩ => ⟨(j 0).val, (j 0).isLt⟩) := by
  have hb : wrapCol v j = (select (cmpi .slt v (broadcastInDim S1600000 ![] bcast_S_S1600000 (constantI S_ 32 0#32)))
      (addi v (broadcastInDim S1600000 ![] bcast_S_S1600000 (constantI S_ 32 100000#32))) v)
      (fun a => match a with | ⟨0, _⟩ => ⟨(j 0).val, (j 0).isLt⟩) :=
    broadcastInDim_apply _ bcast_S1600000_S1600000x1_0 _ j _ (fun a => match a with
      | ⟨0, _⟩ => by show (j 0).val = if (1600000 : Nat) = 1 then 0 else (j 0).val; rw [if_neg (by decide)])
  rw [hb]
  show Scalar.select (IntOp.cmpi .slt (v _) 0#32) _ (v _) = v _
  rw [(in_range_word _ (hv _).1 (hv _).2).1]
  rfl

/-- In range, the guard is 1 at every row. -/
theorem inRange_wrapCol (v : IVec S1600000 32) (hv : InRange v) : inRange (wrapCol v) = fun _ => 1#1 := by
  funext r
  refine Host.reduce_andi_of_all _ _ _ _ rfl (fun j => ?_) r
  show IntOp.andi (IntOp.cmpi .sge (wrapCol v j) 0#32) (IntOp.cmpi .sle (wrapCol v j) 99999#32) = 1#1
  rw [wrapCol_apply v hv j]
  exact IntOp.andi_eq_one.2 ⟨(hv _).1, (in_range_word _ (hv _).1 (hv _).2).2⟩

/-- A `select` whose condition is 1 everywhere is its first branch. -/
theorem select_ones {s : Shape} {α : Type} (a b : s.Idx → α) : select (fun _ => 1#1) a b = a := by
  funext i; rfl

/-- In range, the guarded gathers are the plain gathers at the wrapped indices. -/
theorem take8_of_inRange (x : FVec F S100000x8 .f32) (v : IVec S1600000 32) (hv : InRange v) :
    take8 x v = Host.gather gather_S100000x8_S1600000x1_S1600000x8_1_0_n_n_0_1_18 x (wrapCol v) := by
  show select (broadcastInDim S1600000x8 ![0] bcast_S1600000_S1600000x8_0 (inRange (wrapCol v))) _ _ = _
  rw [inRange_wrapCol v hv]
  exact select_ones _ _

theorem take2_of_inRange (x : FVec F S100000x2 .f32) (v : IVec S1600000 32) (hv : InRange v) :
    take2 x v = Host.gather gather_S100000x2_S1600000x1_S1600000x2_1_0_n_n_0_1_12 x (wrapCol v) := by
  show select (broadcastInDim S1600000x2 ![0] bcast_S1600000_S1600000x2_0 (inRange (wrapCol v))) _ _ = _
  rw [inRange_wrapCol v hv]
  exact select_ones _ _

end Cert.KernelIdeal.Hand

end
-- ==== Proof.PreIdx.lean ====
/-
  The precondition read back at the edge list.  The stated precondition is a conjunction of fifteen whole-array tests;
  its last conjunct says that every entry `w` of the edge list satisfies `0 ≤ w` and `w < 100000` as signed words
  (an `and`-reduction over all entries of the entrywise `and` of the two comparisons).  The conjunction being 1, its
  last conjunct is 1, and a reduction by `and` that is 1 met a 1 at every entry.
-/
import proofs.«418762_j75462575390928_2_alg».proof.Pre_finite_inputs
import proofs.«418762_j75462575390928_2_alg».proof.Proof.Gen.Pre_finite_inputs
import Idealize.ShloMosaic.Lib.ReduceAll
import Idealize.ShloMosaic.Lib.ValueIdx

noncomputable section

namespace Cert.Pre_finite_inputs.Decode

open Idealize.ShloMosaic Cert.Pre_finite_inputs

variable {F : FTy → Type} [FloatOps F] [Cert.Pre_finite_inputs.Facts]

instance : Subsingleton S_.Idx := ⟨fun a b => funext fun d => d.elim0⟩

/-- Under the precondition every entry of the edge list lies in `[0, 100000)`. -/
theorem edge_entries_in_range (a0 : FVec F S100000x8 .f32) (a1 : FVec F S100000x2 .f32) (a2 : IVec S2x1600000 32) (a3 : FVec F S18x64 .f32) (a4 : FVec F S64 .f32) (a5 : FVec F S64x64 .f32) (a6 : FVec F S64 .f32) (a7 : FVec F S64x1 .f32) (a8 : FVec F S1 .f32) (a9 : FVec F S9x64 .f32) (a10 : FVec F S64 .f32) (a11 : FVec F S64x64 .f32) (a12 : FVec F S64 .f32) (a13 : FVec F S64x1 .f32) (a14 : FVec F S1 .f32)
    (h : fn (F := F) a0 a1 a2 a3 a4 a5 a6 a7 a8 a9 a10 a11 a12 a13 a14 = fun _ => 1#1) (i : S2x1600000.Idx) :
    IntOp.cmpi .sge (a2 i) 0#32 = 1#1 ∧ IntOp.cmpi .slt (a2 i) 100000#32 = 1#1 := by
  have h0 := congrFun h ValueIdx.ix0
  simp only [fn, fn_part1, fn_part2, fn_part3, fn_part4] at h0
  have h1 := (IntOp.andi_eq_one.1 h0).2
  have h2 := Host.reduce_andi_all _ _ _ _ _ h1 i
  exact IntOp.andi_eq_one.1 h2

end Cert.Pre_finite_inputs.Decode

end
-- ==== Proof.RefMlp.lean ====
/-
  The reference's two perceptrons read at an index.  The reference applies, to the whole edge-feature array and later to
  the whole node-feature array, three `dot_general`s (each entry a finite sum over the contracted axis), each followed by
  the addition of a bias broadcast along the rows and, for the hidden layers, the maximum with a broadcast zero.  Read at
  row `e` (the output has one column) this is the row perceptron `Cert.Mlp.mlpRow` of row `e` of the input array.
-/
import proofs.«418762_j75462575390928_2_alg».proof.Proof.Gen.ReferenceIdeal.Read
import proofs.«418762_j75462575390928_2_alg».proof.Proof.MlpSpec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Mlp

/-- Two indices of a rank-two shape with the same coordinates are one index. -/
theorem idx2_ext {n0 n1 : Nat} (i j : (⟨2, ![n0, n1]⟩ : Shape).Idx) (h0 : (i 0).val = (j 0).val) (h1 : (i 1).val = (j 1).val) :
    i = j := funext fun a => Fin.ext (by match a with | ⟨0, _⟩ => exact h0 | ⟨1, _⟩ => exact h1)

theorem idx1_ext {n0 : Nat} (i j : (⟨1, ![n0]⟩ : Shape).Idx) (h0 : (i 0).val = (j 0).val) :
    i = j := funext fun a => Fin.ext (by match a with | ⟨0, _⟩ => exact h0)

/-! ## The edge perceptron: `main_v47` from `main_v33` -/

section Edge

variable (x0 : (⟨S100000x8, .f32⟩ : BufTy).Contents (Elt Ideal)) (x1 : (⟨S100000x2, .f32⟩ : BufTy).Contents (Elt Ideal)) (x2 : (⟨S2x1600000, .i32⟩ : BufTy).Contents (Elt Ideal))
  (x3 : (⟨S18x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal))

/-- First hidden layer at row `e`, unit `j`. -/
theorem edge_hidden0 (e : Fin 1600000) (j : Fin 64) :
    val_main_v38 (F := Ideal) x0 x1 x2 x3 x4 (ix2 e j)
      = max ((∑ i : Fin 18, val_main_v33 (F := Ideal) x0 x1 x2 (ix2 e i) * x3 (ix2 i j)) + x4 (ix1 j)) 0 := by
  have el : ∀ i : Fin 18, lidx_main_v34 (ix2 e j) i = ix2 e i := fun i => idx2_ext _ _ rfl rfl
  have er : ∀ i : Fin 18, ridx_main_v34 (ix2 e j) i = ix2 i j := fun i => idx2_ext _ _ rfl rfl
  have eb : idx_main_v35 (idx_main_v36 (ix2 e j)) = ix1 j := idx1_ext _ _ rfl
  rw [val_main_v38_apply, val_main_v37_apply, val_main_v34_apply, val_main_v36_apply, val_main_v35_apply,
    val_main_call0_v0_apply, val_main_call0_cst_apply]
  simp only [el, er, eb, Ideal.maximumf_def, Ideal.addf_def, Ideal.ofBits_def, Ideal.ofBits_zero_f32]

/-- Second hidden layer at row `e`, unit `k`. -/
theorem edge_hidden1 (e : Fin 1600000) (k : Fin 64) :
    val_main_v43 (F := Ideal) x0 x1 x2 x3 x4 x5 x6 (ix2 e k)
      = max ((∑ j : Fin 64, val_main_v38 (F := Ideal) x0 x1 x2 x3 x4 (ix2 e j) * x5 (ix2 j k)) + x6 (ix1 k)) 0 := by
  have el : ∀ j : Fin 64, lidx_main_v39 (ix2 e k) j = ix2 e j := fun j => idx2_ext _ _ rfl rfl
  have er : ∀ j : Fin 64, ridx_main_v39 (ix2 e k) j = ix2 j k := fun j => idx2_ext _ _ rfl rfl
  have eb : idx_main_v40 (idx_main_v41 (ix2 e k)) = ix1 k := idx1_ext _ _ rfl
  rw [val_main_v43_apply, val_main_v42_apply, val_main_v39_apply, val_main_v41_apply, val_main_v40_apply,
    val_main_call1_v0_apply, val_main_call1_cst_apply]
  simp only [el, er, eb, Ideal.maximumf_def, Ideal.addf_def, Ideal.ofBits_def, Ideal.ofBits_zero_f32]

/-- The message of edge `e`: the row perceptron of row `e` of the edge features. -/
theorem edge_mlp (e : Fin 1600000) :
    val_main_v47 (F := Ideal) x0 x1 x2 x3 x4 x5 x6 x7 x8 (ix2 e (0 : Fin 1))
      = mlpRow (fun i : Fin 18 => val_main_v33 (F := Ideal) x0 x1 x2 (ix2 e i))
          (fun (i : Fin 18) (j : Fin 64) => x3 (ix2 i j)) (fun j : Fin 64 => x4 (ix1 j))
          (fun (j k : Fin 64) => x5 (ix2 j k)) (fun k : Fin 64 => x6 (ix1 k))
          (fun k : Fin 64 => x7 (ix2 k (0 : Fin 1))) (x8 (ix1 (0 : Fin 1))) := by
  have el : ∀ k : Fin 64, lidx_main_v44 (ix2 e (0 : Fin 1)) k = ix2 e k := fun k => idx2_ext _ _ rfl rfl
  have er : ∀ k : Fin 64, ridx_main_v44 (ix2 e (0 : Fin 1)) k = ix2 k (0 : Fin 1) := fun k => idx2_ext _ _ rfl rfl
  have eb : idx_main_v45 (idx_main_v46 (ix2 e (0 : Fin 1))) = ix1 (0 : Fin 1) := idx1_ext _ _ rfl
  rw [val_main_v47_apply, val_main_v44_apply, val_main_v46_apply, val_main_v45_apply]
  simp only [el, er, eb, Ideal.addf_def, edge_hidden1, edge_hidden0, mlpRow]

end Edge

/-! ## The node perceptron: `main_v72` from `main_v58` -/

section Node

variable (x0 : (⟨S100000x8, .f32⟩ : BufTy).Contents (Elt Ideal)) (x1 : (⟨S100000x2, .f32⟩ : BufTy).Contents (Elt Ideal)) (x2 : (⟨S2x1600000, .i32⟩ : BufTy).Contents (Elt Ideal))
  (x3 : (⟨S18x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal))
  (x9 : (⟨S9x64, .f32⟩ : BufTy).Contents (Elt Ideal)) (x10 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x1, .f32⟩ : BufTy).Contents (Elt Ideal)) (x14 : (⟨S1, .f32⟩ : BufTy).Contents (Elt Ideal))

/-- First hidden layer at row `n`, unit `j`. -/
theorem node_hidden0 (n : Fin 100000) (j : Fin 64) :
    val_main_v63 (F := Ideal) x0 x1 x2 x3 x4 x5 x6 x7 x8 x9 x10 (ix2 n j)
      = max ((∑ i : Fin 9, val_main_v58 (F := Ideal) x0 x1 x2 x3 x4 x5 x6 x7 x8 (ix2 n i) * x9 (ix2 i j)) + x10 (ix1 j)) 0 := by
  have el : ∀ i : Fin 9, lidx_main_v59 (ix2 n j) i = ix2 n i := fun i => idx2_ext _ _ rfl rfl
  have er : ∀ i : Fin 9, ridx_main_v59 (ix2 n j) i = ix2 i j := fun i => idx2_ext _ _ rfl rfl
  have eb : idx_main_v60 (idx_main_v61 (ix2 n j)) = ix1 j := idx1_ext _ _ rfl
  rw [val_main_v63_apply, val_main_v62_apply, val_main_v59_apply, val_main_v61_apply, val_main_v60_apply,
    val_main_call2_v0_apply, val_main_call2_cst_apply]
  simp only [el, er, eb, Ideal.maximumf_def, Ideal.addf_def, Ideal.ofBits_def, Ideal.ofBits_zero_f32]

/-- Second hidden layer at row `n`, unit `k`. -/
theorem node_hidden1 (n : Fin 100000) (k : Fin 64) :
    val_main_v68 (F := Ideal) x0 x1 x2 x3 x4 x5 x6 x7 x8 x9 x10 x11 x12 (ix2 n k)
      = max ((∑ j : Fin 64, val_main_v63 (F := Ideal) x0 x1 x2 x3 x4 x5 x6 x7 x8 x9 x10 (ix2 n j) * x11 (ix2 j k)) + x12 (ix1 k)) 0 := by
  have el : ∀ j : Fin 64, lidx_main_v64 (ix2 n k) j = ix2 n j := fun j => idx2_ext _ _ rfl rfl
  have er : ∀ j : Fin 64, ridx_main_v64 (ix2 n k) j = ix2 j k := fun j => idx2_ext _ _ rfl rfl
  have eb : idx_main_v65 (idx_main_v66 (ix2 n k)) = ix1 k := idx1_ext _ _ rfl
  rw [val_main_v68_apply, val_main_v67_apply, val_main_v64_apply, val_main_v66_apply, val_main_v65_apply,
    val_main_call3_v0_apply, val_main_call3_cst_apply]
  simp only [el, er, eb, Ideal.maximumf_def, Ideal.addf_def, Ideal.ofBits_def, Ideal.ofBits_zero_f32]

/-- The update of node `n`: the row perceptron of row `n` of the node features. -/
theorem node_mlp (n : Fin 100000) :
    val_main_v72 (F := Ideal) x0 x1 x2 x3 x4 x5 x6 x7 x8 x9 x10 x11 x12 x13 x14 (ix2 n (0 : Fin 1))
      = mlpRow (fun i : Fin 9 => val_main_v58 (F := Ideal) x0 x1 x2 x3 x4 x5 x6 x7 x8 (ix2 n i))
          (fun (i : Fin 9) (j : Fin 64) => x9 (ix2 i j)) (fun j : Fin 64 => x10 (ix1 j))
          (fun (j k : Fin 64) => x11 (ix2 j k)) (fun k : Fin 64 => x12 (ix1 k))
          (fun k : Fin 64 => x13 (ix2 k (0 : Fin 1))) (x14 (ix1 (0 : Fin 1))) := by
  have el : ∀ k : Fin 64, lidx_main_v69 (ix2 n (0 : Fin 1)) k = ix2 n k := fun k => idx2_ext _ _ rfl rfl
  have er : ∀ k : Fin 64, ridx_main_v69 (ix2 n (0 : Fin 1)) k = ix2 k (0 : Fin 1) := fun k => idx2_ext _ _ rfl rfl
  have eb : idx_main_v70 (idx_main_v71 (ix2 n (0 : Fin 1))) = ix1 (0 : Fin 1) := idx1_ext _ _ rfl
  rw [val_main_v72_apply, val_main_v69_apply, val_main_v71_apply, val_main_v70_apply]
  simp only [el, er, eb, Ideal.addf_def, node_hidden1, node_hidden0, mlpRow]

end Node

end Cert.ReferenceIdeal.RefValue

end
-- ==== Proof.HostSame.lean ====
/-
  The host operations the two programs share, compared as terms.  Apart from the guards of the kernel program's
  gathers, the kernel program and the reference apply literally the same host operations: the same negative-index wrap
  and gathers at the same rows, the same join into the edge features; the same scatter-adds of messages and of ones, the
  same clamp, quotient and join into the node features; the same slice and final addition.  Each comparison holds at any
  float interpretation, by unfolding the reference's stage definitions: no operation is ever opened.
-/
import proofs.«418762_j75462575390928_2_alg».proof.Proof.KiHost
import proofs.«418762_j75462575390928_2_alg».proof.Proof.Gen.ReferenceIdeal.Read

set_option maxRecDepth 16384

noncomputable section

namespace Cert.KernelIdeal.Hand

open Idealize.ShloMosaic Idealize.ShloMosaic.TcCoe Idealize.SL.Sem
open Cert.KernelIdeal Cert.KernelIdeal.Gen
open Cert.ReferenceIdeal.Read

variable {F : FTy → Type} [FloatOps F]

attribute [local irreducible] Host.gather Host.scatterAdd Host.reduce concatenate

/-- The edge features: unguarded gathers at the wrapped rows, joined, are the reference's edge features. -/
theorem edgeIn_same (a0 : FVec F S100000x8 .f32) (a1 : FVec F S100000x2 .f32) (a2 : IVec S2x1600000 32) :
    (concatenate S1600000x18 1
      [⟨S1600000x8, Host.gather gather_S100000x8_S1600000x1_S1600000x8_1_0_n_n_0_1_18 a0 (wrapCol (dstRow a2))⟩,
       ⟨S1600000x8, Host.gather gather_S100000x8_S1600000x1_S1600000x8_1_0_n_n_0_1_18 a0 (wrapCol (srcRow a2))⟩,
       ⟨S1600000x2, subf (Host.gather gather_S100000x2_S1600000x1_S1600000x2_1_0_n_n_0_1_12 a1 (wrapCol (srcRow a2)))
          (Host.gather gather_S100000x2_S1600000x1_S1600000x2_1_0_n_n_0_1_12 a1 (wrapCol (dstRow a2)))⟩]
      concatenates_S1600000x8_S1600000x8_S1600000x2_S1600000x18_d1 : FVec F S1600000x18 .f32)
      = val_main_v33 (F := F) a0 a1 a2 := rfl

/-- The node features: the mean aggregation of the reference's messages joined to the node features is the
    reference's node features. -/
theorem nodeIn_same (a0 : FVec F S100000x8 .f32) (a1 : FVec F S100000x2 .f32) (a2 : IVec S2x1600000 32) (a3 : FVec F S18x64 .f32) (a4 : FVec F S64 .f32) (a5 : FVec F S64x64 .f32) (a6 : FVec F S64 .f32) (a7 : FVec F S64x1 .f32) (a8 : FVec F S1 .f32) :
    nodeIn a0 (dstRow a2) (val_main_v47 (F := F) a0 a1 a2 a3 a4 a5 a6 a7 a8) = val_main_v58 (F := F) a0 a1 a2 a3 a4 a5 a6 a7 a8 := rfl

/-- The result: the last feature column plus the reference's node updates is the reference's result. -/
theorem result_same (a0 : FVec F S100000x8 .f32) (a1 : FVec F S100000x2 .f32) (a2 : IVec S2x1600000 32) (a3 : FVec F S18x64 .f32) (a4 : FVec F S64 .f32) (a5 : FVec F S64x64 .f32) (a6 : FVec F S64 .f32) (a7 : FVec F S64x1 .f32) (a8 : FVec F S1 .f32) (a9 : FVec F S9x64 .f32) (a10 : FVec F S64 .f32) (a11 : FVec F S64x64 .f32) (a12 : FVec F S64 .f32) (a13 : FVec F S64x1 .f32) (a14 : FVec F S1 .f32) :
    (addf (extractStridedSlice S100000x1 ![0, 7] a0 slices_S100000x8_S100000x1_0_7) (val_main_v72 (F := F) a0 a1 a2 a3 a4 a5 a6 a7 a8 a9 a10 a11 a12 a13 a14)
        : FVec F S100000x1 .f32)
      = val_main_v74 (F := F) a0 a1 a2 a3 a4 a5 a6 a7 a8 a9 a10 a11 a12 a13 a14 := rfl

end Cert.KernelIdeal.Hand

end
-- ==== Proof.Bridge.lean ====
/-
  The two idealized programs compute one function.  With every edge endpoint in `[0, 100000)` (the precondition's last
  conjunct) the kernel program's guarded gathers are the reference's plain gathers, so both programs build the same
  edge-feature array; on it both apply the same row perceptron (the kernel tile by tile, the reference on the whole
  array: entry by entry the same finite sums, products and maxima of extended reals), so the edge messages agree; the
  mean aggregation and the join with the node features are the same host operations on equal operands; the second row
  perceptron agrees for the same reason; and the residual addition is the same operation.
-/
import proofs.«418762_j75462575390928_2_alg».proof.Defs
import proofs.«418762_j75462575390928_2_alg».proof.Proof.KiRun
import proofs.«418762_j75462575390928_2_alg».proof.Proof.KiValue
import proofs.«418762_j75462575390928_2_alg».proof.Proof.KiChain
import proofs.«418762_j75462575390928_2_alg».proof.Proof.KiMask
import proofs.«418762_j75462575390928_2_alg».proof.Proof.PreIdx
import proofs.«418762_j75462575390928_2_alg».proof.Proof.RefMlp
import proofs.«418762_j75462575390928_2_alg».proof.Proof.HostSame
import Idealize.ShloMosaic.Lib.ValueLayout

set_option maxRecDepth 16384

noncomputable section

namespace Cert.KernelIdeal.Hand

open Idealize.ShloMosaic Idealize.ShloMosaic.TcCoe Idealize.SL.Sem
open Idealize.ShloMosaic.ValueIdx
open Cert.KernelIdeal Cert.KernelIdeal.Gen Cert.Mlp
open Cert.ReferenceIdeal.Read Cert.ReferenceIdeal.RefValue

variable (m : (ℓ : Loc nD τ sig) → Buf (Elt Ideal) ℓ)

/-! ## The edge endpoints are in range -/

/-- Under the precondition both rows of the edge list hold node numbers in `[0, 100000)`. -/
theorem rows_inRange (hpre : Cert.Pre_KernelIdeal m) (c : Dev nD) :
    InRange (srcRow (V0 m c main_arg2)) ∧ InRange (dstRow (V0 m c main_arg2)) := by
  have h := Cert.Pre_finite_inputs.Decode.edge_entries_in_range (F := Ideal) _ _ _ _ _ _ _ _ _ _ _ _ _ _ _ (hpre c)
  exact ⟨fun i => h _, fun i => h _⟩

/-! ## The edge features -/

theorem edgeIn_ref (hpre : Cert.Pre_KernelIdeal m) (c : Dev nD) :
    (V6 m c main_v9 : S1600000x18.Idx → EReal)
      = val_main_v33 (F := Ideal) (V0 m c main_arg0) (V0 m c main_arg1) (V0 m c main_arg2) := by
  obtain ⟨hs, hd⟩ := rows_inRange m hpre c
  rw [edgeIn_eq m c, take8_of_inRange (F := Ideal) _ _ hd, take8_of_inRange (F := Ideal) _ _ hs, take2_of_inRange (F := Ideal) _ _ hs, take2_of_inRange (F := Ideal) _ _ hd]
  exact edgeIn_same (F := Ideal) _ _ _

/-! ## The edge messages -/

theorem msg_ref (hpre : Cert.Pre_KernelIdeal m) (c : Dev nD) :
    (outs m 7 main_v13 c : S1600000x1.Idx → EReal)
      = val_main_v47 (F := Ideal) (V0 m c main_arg0) (V0 m c main_arg1) (V0 m c main_arg2) (V0 m c main_arg3)
          (V0 m c main_arg4) (V0 m c main_arg5) (V0 m c main_arg6) (V0 m c main_arg7) (V0 m c main_arg8) := by
  funext i
  obtain ⟨e, z, rfl⟩ : ∃ (e : Fin 1600000) (z : Fin 1), i = ix2 e z := ⟨i 0, i 1, eq_ix2 i⟩
  obtain rfl : z = 0 := Subsingleton.elim _ _
  rw [outs_7 m c, edge_mlp]
  refine (final0_apply (fun c b => V6 m c b) c e).trans ?_
  dsimp only
  rw [edgeIn_ref m hpre c,
    V6_keep m c main_arg3 (by decide) (by decide) (by decide) (by decide) (by decide) (by decide),
    V6_keep m c main_arg5 (by decide) (by decide) (by decide) (by decide) (by decide) (by decide),
    V6_keep m c main_arg7 (by decide) (by decide) (by decide) (by decide) (by decide) (by decide),
    V6_b0 m c, V6_b1 m c, V6_b2 m c,
    V5_of m c main_arg4 (by decide), V4_of m c main_arg4 (by decide), V3_of m c main_arg4 (by decide), V2_of m c main_arg4 (by decide), V1_of m c main_arg4 (by decide),
    V5_of m c main_arg6 (by decide), V4_of m c main_arg6 (by decide), V3_of m c main_arg6 (by decide), V2_of m c main_arg6 (by decide), V1_of m c main_arg6 (by decide),
    V5_of m c main_arg8 (by decide), V4_of m c main_arg8 (by decide), V3_of m c main_arg8 (by decide), V2_of m c main_arg8 (by decide), V1_of m c main_arg8 (by decide)]
  simp only [shapeCast_a_1a_apply]

/-! ## The node features -/

theorem nodeIn_ref (hpre : Cert.Pre_KernelIdeal m) (c : Dev nD) :
    (V8 m (outs m) c main_v24 : S100000x9.Idx → EReal)
      = val_main_v58 (F := Ideal) (V0 m c main_arg0) (V0 m c main_arg1) (V0 m c main_arg2) (V0 m c main_arg3)
          (V0 m c main_arg4) (V0 m c main_arg5) (V0 m c main_arg6) (V0 m c main_arg7) (V0 m c main_arg8) := by
  rw [nodeIn_eq m (outs m) c, msg_ref m hpre c]
  exact nodeIn_same (F := Ideal) _ _ _ _ _ _ _ _ _

/-! ## The node updates -/

theorem upd_ref (hpre : Cert.Pre_KernelIdeal m) (c : Dev nD) :
    (outs m 9 main_v28 c : S100000x1.Idx → EReal)
      = val_main_v72 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) := by
  funext i
  obtain ⟨n, z, rfl⟩ : ∃ (n : Fin 100000) (z : Fin 1), i = ix2 n z := ⟨i 0, i 1, eq_ix2 i⟩
  obtain rfl : z = 0 := Subsingleton.elim _ _
  rw [outs_9 m c, node_mlp]
  refine (final1_apply (fun c b => V8 m (outs m) c b) c n).trans ?_
  dsimp only
  rw [nodeIn_ref m hpre c,
    V8_keep m (outs m) c main_arg9 (by decide) (by decide), V6_keep m c main_arg9 (by decide) (by decide) (by decide) (by decide) (by decide) (by decide),
    V8_keep m (outs m) c main_arg11 (by decide) (by decide), V6_keep m c main_arg11 (by decide) (by decide) (by decide) (by decide) (by decide) (by decide),
    V8_keep m (outs m) c main_arg13 (by decide) (by decide), V6_keep m c main_arg13 (by decide) (by decide) (by decide) (by decide) (by decide) (by decide),
    V8_b0 m (outs m) c, V8_b1 m (outs m) c, V8_b2 m (outs m) c,
    V7_of m (outs m) c main_arg10 (by decide), V6_keep m c main_arg10 (by decide) (by decide) (by decide) (by decide) (by decide) (by decide),
    V7_of m (outs m) c main_arg12 (by decide), V6_keep m c main_arg12 (by decide) (by decide) (by decide) (by decide) (by decide) (by decide),
    V7_of m (outs m) c main_arg14 (by decide), V6_keep m c main_arg14 (by decide) (by decide) (by decide) (by decide) (by decide) (by decide)]
  simp only [shapeCast_a_1a_apply]

/-! ## The result -/

theorem result_ref (hpre : Cert.Pre_KernelIdeal m) (c : Dev nD) :
    (V10 m (outs m) c main_v30 : S100000x1.Idx → EReal)
      = val_main_v74 (F := Ideal) (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) (V0 m c main_arg13) (V0 m c main_arg14) := by
  rw [out_eq m (outs m) c, upd_ref m hpre c]
  exact result_same (F := Ideal) _ _ _ _ _ _ _ _ _ _ _ _ _ _ _

end Cert.KernelIdeal.Hand

end
-- ==== Proof.lean ====
/-
  The certificate of the message-passing step: an edge perceptron over gathered node features, a mean aggregation
  onto target nodes, a node perceptron, a residual.  The kernel program runs the two perceptrons as row-tiled
  pallas_calls between host gathers and a host scatter; the reference runs everything on the host.

  * Frames.  The kernel program (at the word level and idealized) is run region by region: each perceptron body reads its
    blocks whole and stores one whole block, the pipeline's staging is the library's, the host stretches between the
    regions are straight lines of pure operations; no argument buffer is ever written.  The reference's frame is its run.
  * Value.  Under the added precondition conjunct (every edge endpoint in `[0, 100000)`) the kernel program's guarded
    gathers are the reference's gathers; the two perceptrons agree row by row (finite sums, products and maxima of
    extended reals only: no finiteness is used); every other host operation is shared.
  * The idealization rewrote nothing, so `preserves` is trivial.
-/
import proofs.«418762_j75462575390928_2_alg».proof.Defs
import proofs.«418762_j75462575390928_2_alg».proof.Proof.Gen.Kernel
import proofs.«418762_j75462575390928_2_alg».proof.Proof.Gen.KernelIdeal
import proofs.«418762_j75462575390928_2_alg».proof.Proof.Gen.ReferenceIdeal
import proofs.«418762_j75462575390928_2_alg».proof.Proof.Gen.Pre_finite_inputs
import proofs.«418762_j75462575390928_2_alg».proof.Proof.Gen.ReferenceIdeal.Run
import proofs.«418762_j75462575390928_2_alg».proof.Proof.Gen.ReferenceIdeal.Read
import proofs.«418762_j75462575390928_2_alg».proof.Proof.KRun
import proofs.«418762_j75462575390928_2_alg».proof.Proof.KiRun
import proofs.«418762_j75462575390928_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame m ρ

/-- The idealized kernel program runs and leaves its arguments as launched. -/
theorem frame_ki : Cert.frame_KernelIdeal := fun m ρ _ => Cert.KernelIdeal.Hand.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the same result: the kernel program's last buffer, which the bridge shows to be
    the reference's composed term of the (agreeing) arguments. -/
theorem algebraic : Cert.algebraic_KernelIdeal_ReferenceIdeal := by
  intro m ρ m' ρ' hpre hagree
  refine ⟨fun c => Cert.KernelIdeal.Gen.V10 m (Cert.KernelIdeal.Hand.outs m) c Cert.KernelIdeal.main_v30,
    Cert.KernelIdeal.Hand.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq]
  obtain ⟨e0, e1, e2, e3, e4, e5, e6, e7, e8, e9, e10, e11, e12, e13, e14⟩ := hagree c
  rw [e0, e1, e2, e3, e4, e5, e6, e7, e8, e9, e10, e11, e12, e13, e14]
  exact (Cert.KernelIdeal.Hand.result_ref m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
